-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S_ : Shape := ⟨0, ![]⟩

class Facts : Prop where
  bcast_S_S256x1x80x16 : S_.BroadcastsInDim S256x1x80x16 (![] : Fin 0 → Fin S256x1x80x16.rank)
  reducesTo_S256x1x80x16_S_d0_1_2_3 : S256x1x80x16.ReducesTo [0, 1, 2, 3] S_
  h_S_ : 0 < S_.numel
  bcast_S_S256x3x5x96x96 : S_.BroadcastsInDim S256x3x5x96x96 (![] : Fin 0 → Fin S256x3x5x96x96.rank)
  reducesTo_S256x3x5x96x96_S_d0_1_2_3_4 : S256x3x5x96x96.ReducesTo [0, 1, 2, 3, 4] S_
  bcast_S_S1280x512 : S_.BroadcastsInDim S1280x512 (![] : Fin 0 → Fin S1280x512.rank)
  reducesTo_S1280x512_S_d0_1 : S1280x512.ReducesTo [0, 1] S_
  bcast_S_S69120x512 : S_.BroadcastsInDim S69120x512 (![] : Fin 0 → Fin S69120x512.rank)
  reducesTo_S69120x512_S_d0_1 : S69120x512.ReducesTo [0, 1] S_

variable [Facts]

def fn_part1 {F : FTy → Type} [FloatOps F] (main_arg4 : FVec F S1280x512 .f32) (main_arg5 : FVec F S69120x512 .f32) (main_v13 : IVec S_ 1) (main_v16 : IVec S256x3x5x96x96 1) : IVec S_ 1 :=
  let main_c_5 : IVec S_ 1 := constantI S_ 1 1#1
  let main_v17 : IVec S_ 1 := (fun x v => Host.reduce IntOp.andi x v reducesTo_S256x3x5x96x96_S_d0_1_2_3_4 h_S_) main_v16 main_c_5
  let main_v18 : IVec S_ 1 := andi main_v13 main_v17
  let main_v19 : FVec F S1280x512 .f32 := Host.absf main_arg4
  let main_cst_6 : FVec F S_ .f32 := constant S_ .f32 0x7F800000#32
  let main_v20 : FVec F S1280x512 .f32 := broadcastInDim S1280x512 ![] bcast_S_S1280x512 main_cst_6
  let main_v21 : IVec S1280x512 1 := cmpf .olt main_v19 main_v20
  let main_c_7 : IVec S_ 1 := constantI S_ 1 1#1
  let main_v22 : IVec S_ 1 := (fun x v => Host.reduce IntOp.andi x v reducesTo_S1280x512_S_d0_1 h_S_) main_v21 main_c_7
  let main_v23 : IVec S_ 1 := andi main_v18 main_v22
  let main_v24 : FVec F S69120x512 .f32 := Host.absf main_arg5
  let main_cst_8 : FVec F S_ .f32 := constant S_ .f32 0x7F800000#32
  let main_v25 : FVec F S69120x512 .f32 := broadcastInDim S69120x512 ![] bcast_S_S69120x512 main_cst_8
  let main_v26 : IVec S69120x512 1 := cmpf .olt main_v24 main_v25
  let main_c_9 : IVec S_ 1 := constantI S_ 1 1#1
  let main_v27 : IVec S_ 1 := (fun x v => Host.reduce IntOp.andi x v reducesTo_S69120x512_S_d0_1 h_S_) main_v26 main_c_9
  let main_v28 : IVec S_ 1 := andi main_v23 main_v27
  main_v28

def fn {F : FTy → Type} [FloatOps F] (main_arg0 : FVec F S256x1x80x16 .f32) (main_arg1 : FVec F S256x3x5x96x96 .f32) (main_arg2 : FVec F S256x1x80x16 .f32) (main_arg3 : FVec F S256x3x5x96x96 .f32) (main_arg4 : FVec F S1280x512 .f32) (main_arg5 : FVec F S69120x512 .f32) : IVec S_ 1 :=
  let main_v0 : FVec F S256x1x80x16 .f32 := Host.absf main_arg0
  let main_cst : FVec F S_ .f32 := constant S_ .f32 0x7F800000#32
  let main_v1 : FVec F S256x1x80x16 .f32 := broadcastInDim S256x1x80x16 ![] bcast_S_S256x1x80x16 main_cst
  let main_v2 : IVec S256x1x80x16 1 := cmpf .olt main_v0 main_v1
  let main_c : IVec S_ 1 := constantI S_ 1 1#1
  let main_v3 : IVec S_ 1 := (fun x v => Host.reduce IntOp.andi x v reducesTo_S256x1x80x16_S_d0_1_2_3 h_S_) main_v2 main_c
  let main_v4 : FVec F S256x3x5x96x96 .f32 := Host.absf main_arg1
  let main_cst_0 : FVec F S_ .f32 := constant S_ .f32 0x7F800000#32
  let main_v5 : FVec F S256x3x5x96x96 .f32 := broadcastInDim S256x3x5x96x96 ![] bcast_S_S256x3x5x96x96 main_cst_0
  let main_v6 : IVec S256x3x5x96x96 1 := cmpf .olt main_v4 main_v5
  let main_c_1 : IVec S_ 1 := constantI S_ 1 1#1
  let main_v7 : IVec S_ 1 := (fun x v => Host.reduce IntOp.andi x v reducesTo_S256x3x5x96x96_S_d0_1_2_3_4 h_S_) main_v6 main_c_1
  let main_v8 : IVec S_ 1 := andi main_v3 main_v7
  let main_v9 : FVec F S256x1x80x16 .f32 := Host.absf main_arg2
  let main_cst_2 : FVec F S_ .f32 := constant S_ .f32 0x7F800000#32
  let main_v10 : FVec F S256x1x80x16 .f32 := broadcastInDim S256x1x80x16 ![] bcast_S_S256x1x80x16 main_cst_2
  let main_v11 : IVec S256x1x80x16 1 := cmpf .olt main_v9 main_v10
  let main_c_3 : IVec S_ 1 := constantI S_ 1 1#1
  let main_v12 : IVec S_ 1 := (fun x v => Host.reduce IntOp.andi x v reducesTo_S256x1x80x16_S_d0_1_2_3 h_S_) main_v11 main_c_3
  let main_v13 : IVec S_ 1 := andi main_v8 main_v12
  let main_v14 : FVec F S256x3x5x96x96 .f32 := Host.absf main_arg3
  let main_cst_4 : FVec F S_ .f32 := constant S_ .f32 0x7F800000#32
  let main_v15 : FVec F S256x3x5x96x96 .f32 := broadcastInDim S256x3x5x96x96 ![] bcast_S_S256x3x5x96x96 main_cst_4
  let main_v16 : IVec S256x3x5x96x96 1 := cmpf .olt main_v14 main_v15
  fn_part1 (F := F) main_arg4 main_arg5 main_v13 main_v16
-- ==== Kernel.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S512x1x80x16 : Shape := ⟨4, ![512, 1, 80, 16]⟩
abbrev S512x3x5x96x96 : Shape := ⟨5, ![512, 3, 5, 96, 96]⟩
abbrev S512x3x5x48x96 : Shape := ⟨5, ![512, 3, 5, 48, 96]⟩
abbrev S512x5x3x48x96 : Shape := ⟨5, ![512, 5, 3, 48, 96]⟩
abbrev S512x15x48x96 : Shape := ⟨4, ![512, 15, 48, 96]⟩
abbrev S512x1280 : Shape := ⟨2, ![512, 1280]⟩
abbrev S512x69120 : Shape := ⟨2, ![512, 69120]⟩
abbrev S512x512 : Shape := ⟨2, ![512, 512]⟩
abbrev S512x7680 : Shape := ⟨2, ![512, 7680]⟩
abbrev S7680x512 : Shape := ⟨2, ![7680, 512]⟩
abbrev S_ : Shape := ⟨0, ![]⟩
abbrev S512 : Shape := ⟨1, ![512]⟩
abbrev S512x1 : Shape := ⟨2, ![512, 1]⟩
abbrev S256x512 : Shape := ⟨2, ![256, 512]⟩
abbrev S256 : Shape := ⟨1, ![256]⟩

abbrev nBuf : Space → Nat
  | .hbm => 88
  | .vmem => 10
  | .smem => 0
  | _ => 0

abbrev bufTy : (tb : Table) → Fin (tcTables nBuf tb) → BufTy
  | .hbm, ⟨0, _⟩ => ⟨S256x1x80x16, .f32⟩
  | .hbm, ⟨1, _⟩ => ⟨S256x3x5x96x96, .f32⟩
  | .hbm, ⟨2, _⟩ => ⟨S256x1x80x16, .f32⟩
  | .hbm, ⟨3, _⟩ => ⟨S256x3x5x96x96, .f32⟩
  | .hbm, ⟨4, _⟩ => ⟨S1280x512, .f32⟩
  | .hbm, ⟨5, _⟩ => ⟨S69120x512, .f32⟩
  | .hbm, ⟨6, _⟩ => ⟨S512x1x80x16, .f32⟩
  | .hbm, ⟨7, _⟩ => ⟨S512x3x5x96x96, .f32⟩
  | .hbm, ⟨8, _⟩ => ⟨S512x3x5x48x96, .f32⟩
  | .hbm, ⟨9, _⟩ => ⟨S512x5x3x48x96, .f32⟩
  | .hbm, ⟨10, _⟩ => ⟨S512x15x48x96, .f32⟩
  | .hbm, ⟨11, _⟩ => ⟨S512x1280, .f32⟩
  | .hbm, ⟨12, _⟩ => ⟨S512x1280, .bf16⟩
  | .hbm, ⟨13, _⟩ => ⟨S512x69120, .f32⟩
  | .hbm, ⟨14, _⟩ => ⟨S512x69120, .bf16⟩
  | .hbm, ⟨15, _⟩ => ⟨S1280x512, .bf16⟩
  | .hbm, ⟨16, _⟩ => ⟨S69120x512, .bf16⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512, .f32⟩
  | .hbm, ⟨22, _⟩ => ⟨S512x1, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x512, .f32⟩
  | .hbm, ⟨38, _⟩ => ⟨S512x512, .f32⟩
  | .hbm, ⟨39, _⟩ => ⟨S256x512, .f32⟩
  | .hbm, ⟨40, _⟩ => ⟨S256x512, .f32⟩
  | .hbm, ⟨41, _⟩ => ⟨S256x512, .f32⟩
  | .hbm, ⟨42, _⟩ => ⟨S256x512, .f32⟩
  | .hbm, ⟨43, _⟩ => ⟨S256x512, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256x512, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256x512, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256x512, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256x512, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256x512, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S512x512, .f32⟩
  | .hbm, ⟨73, _⟩ => ⟨S256x512, .f32⟩
  | .hbm, ⟨74, _⟩ => ⟨S256x512, .f32⟩
  | .hbm, ⟨75, _⟩ => ⟨S512x512, .f32⟩
  | .hbm, ⟨76, _⟩ => ⟨S256x512, .f32⟩
  | .hbm, ⟨77, _⟩ => ⟨S256x512, .f32⟩
  | .hbm, ⟨78, _⟩ => ⟨S256x512, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S512x1280, .bf16⟩
  | .local _ .vmem, ⟨1, _⟩ => ⟨S1280x512, .bf16⟩
  | .local _ .vmem, ⟨2, _⟩ => ⟨S512x512, .f32⟩
  | .local _ .vmem, ⟨3, _⟩ => ⟨S512x512, .f32⟩
  | .local _ .vmem, ⟨4, _⟩ => ⟨S512x7680, .bf16⟩
  | .local _ .vmem, ⟨5, _⟩ => ⟨S512x7680, .bf16⟩
  | .local _ .vmem, ⟨6, _⟩ => ⟨S7680x512, .bf16⟩
  | .local _ .vmem, ⟨7, _⟩ => ⟨S7680x512, .bf16⟩
  | .local _ .vmem, ⟨8, _⟩ => ⟨S512x512, .f32⟩
  | .local _ .vmem, ⟨9, _⟩ => ⟨S512x512, .f32⟩
  | _, _ => ⟨S256x1x80x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1280x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![9], ![false]⟩

def k1_cond2 (i : grid1.Coords) : BitVec 1 :=
  let arg0 : BitVec 32 := BitVec.ofNat 32 (i 0).val
  let c8_i32 : BitVec 32 := 8#32
  let v13 : BitVec 1 := Scalar.cmpi .eq arg0 c8_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x7680 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S7680x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  concatenates_S256x1x80x16_S256x1x80x16_S512x1x80x16_d0 : Shape.Concatenates [S256x1x80x16, S256x1x80x16] S512x1x80x16 0
  concatenates_S256x3x5x96x96_S256x3x5x96x96_S512x3x5x96x96_d0 : Shape.Concatenates [S256x3x5x96x96, S256x3x5x96x96] S512x3x5x96x96 0
  slices_S512x3x5x96x96_S512x3x5x48x96_0_0_0_48_0 : S512x3x5x96x96.Slices ![0, 0, 0, 48, 0] S512x3x5x48x96
  transposes_S512x3x5x48x96_S512x5x3x48x96_0_2_1_3_4 : S512x3x5x48x96.Transposes [0, 2, 1, 3, 4] S512x5x3x48x96
  shapeCasts_S512x5x3x48x96_S512x15x48x96 : S512x5x3x48x96.ShapeCasts S512x15x48x96
  shapeCasts_S512x1x80x16_S512x1280 : S512x1x80x16.ShapeCasts S512x1280
  bitsLt_bf16_f32 : FTy.bits .bf16 < FTy.bits .f32
  shapeCasts_S512x15x48x96_S512x69120 : S512x15x48x96.ShapeCasts S512x69120
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S512x7680_S512x7680_0_0 : ∀ a, (![0, 0] : Fin 2 → Nat) a + S512x7680.size a ≤ S512x7680.size a
  h_S512x7680 : 0 < S512x7680.numel
  shapeCasts_S512x7680_S512x7680 : S512x7680.ShapeCasts S512x7680
  inb_S7680x512_S7680x512_0_0 : ∀ a, (![0, 0] : Fin 2 → Nat) a + S7680x512.size a ≤ S7680x512.size a
  h_S7680x512 : 0 < S7680x512.numel
  shapeCasts_S7680x512_S7680x512 : S7680x512.ShapeCasts S7680x512
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  slices_S512x512_S256x512_0_0 : S512x512.Slices ![0, 0] S256x512
  slices_S512x512_S256x512_256_0 : S512x512.Slices ![256, 0] S256x512
  reducesTo_S256x512_S256_d1 : S256x512.ReducesTo [1] S256
  transposes_S512x512_S512x512_1_0 : S512x512.Transposes [1, 0] S512x512
  reducesTo_S256_S_d0 : S256.ReducesTo [0] S_
  dot_S512x1280_S1280x512_S512x512_1_0_0_1_n_n_wf : DotDims.WF S512x1280 S1280x512 S512x512 [1] [0] [0] [1] [] []
  dot_S512x7680_S7680x512_S512x512_1_0_0_1_n_n_wf : DotDims.WF S512x7680 S7680x512 S512x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S512x1280.size a
  hwx0_0 : ∀ i : grid0.Coords, EltTy.bits .bf16 = 32 ∨ (Rect.block (s := S512x1280) S512x1280.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S1280x512.size a
  hwx0_1 : ∀ i : grid0.Coords, EltTy.bits .bf16 = 32 ∨ (Rect.block (s := S1280x512) S1280x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x7680.size a ≤ S512x69120.size a
  hwx1_0 : ∀ i : grid1.Coords, EltTy.bits .bf16 = 32 ∨ (Rect.block (s := S512x69120) S512x7680.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S7680x512.size a ≤ S69120x512.size a
  hwx1_1 : ∀ i : grid1.Coords, EltTy.bits .bf16 = 32 ∨ (Rect.block (s := S69120x512) S7680x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)

variable [Facts₀]

def dot_S512x1280_S1280x512_S512x512_1_0_0_1_n_n : DotDims S512x1280 S1280x512 S512x512 where
  lhsContracting := [1]
  rhsContracting := [0]
  lhsNonContracting := [0]
  rhsNonContracting := [1]
  lhsBatch := []
  rhsBatch := []
  wf := dot_S512x1280_S1280x512_S512x512_1_0_0_1_n_n_wf
def dot_S512x7680_S7680x512_S512x512_1_0_0_1_n_n : DotDims S512x7680 S7680x512 S512x512 where
  lhsContracting := [1]
  rhsContracting := [0]
  lhsNonContracting := [0]
  rhsNonContracting := [1]
  lhsBatch := []
  rhsBatch := []
  wf := dot_S512x7680_S7680x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v6) S512x1280.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1280x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v8) S512x7680.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S7680x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1x80x16 : Shape := ⟨4, ![256, 1, 80, 16]⟩
abbrev S256x3x5x96x96 : Shape := ⟨5, ![256, 3, 5, 96, 96]⟩
abbrev S1280x512 : Shape := ⟨2, ![1280, 512]⟩
abbrev S69120x512 : Shape := ⟨2, ![69120, 512]⟩
abbrev S512x1x80x16 : Shape := ⟨4, ![512, 1, 80, 16]⟩
abbrev S512x3x5x96x96 : Shape := ⟨5, ![512, 3, 5, 96, 96]⟩
abbrev S512x3x5x48x96 : Shape := ⟨5, ![512, 3, 5, 48, 96]⟩
abbrev S512x5x3x48x96 : Shape := ⟨5, ![512, 5, 3, 48, 96]⟩
abbrev S512x15x48x96 : Shape := ⟨4, ![512, 15, 48, 96]⟩
abbrev S512x1280 : Shape := ⟨2, ![512, 1280]⟩
abbrev S512x512 : Shape := ⟨2, ![512, 512]⟩
abbrev S_ : Shape := ⟨0, ![]⟩
abbrev S512 : Shape := ⟨1, ![512]⟩
abbrev S512x1 : Shape := ⟨2, ![512, 1]⟩
abbrev S512x69120 : Shape := ⟨2, ![512, 69120]⟩
abbrev S256x512 : Shape := ⟨2, ![256, 512]⟩
abbrev S256 : Shape := ⟨1, ![256]⟩

abbrev nBuf : Space → Nat
  | .hbm => 84
  | .vmem => 0
  | .smem => 0
  | _ => 0

abbrev bufTy : (tb : Table) → Fin (tcTables nBuf tb) → BufTy
  | .hbm, ⟨0, _⟩ => ⟨S256x1x80x16, .f32⟩
  | .hbm, ⟨1, _⟩ => ⟨S256x3x5x96x96, .f32⟩
  | .hbm, ⟨2, _⟩ => ⟨S256x1x80x16, .f32⟩
  | .hbm, ⟨3, _⟩ => ⟨S256x3x5x96x96, .f32⟩
  | .hbm, ⟨4, _⟩ => ⟨S1280x512, .f32⟩
  | .hbm, ⟨5, _⟩ => ⟨S69120x512, .f32⟩
  | .hbm, ⟨6, _⟩ => ⟨S512x1x80x16, .f32⟩
  | .hbm, ⟨7, _⟩ => ⟨S512x3x5x96x96, .f32⟩
  | .hbm, ⟨8, _⟩ => ⟨S512x3x5x48x96, .f32⟩
  | .hbm, ⟨9, _⟩ => ⟨S512x5x3x48x96, .f32⟩
  | .hbm, ⟨10, _⟩ => ⟨S512x15x48x96, .f32⟩
  | .hbm, ⟨11, _⟩ => ⟨S512x1280, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x512, .f32⟩
  | .hbm, ⟨22, _⟩ => ⟨S512x512, .f32⟩
  | .hbm, ⟨23, _⟩ => ⟨S512x69120, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S512x1, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x512, .f32⟩
  | .hbm, ⟨34, _⟩ => ⟨S512x512, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256x512, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256x512, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256x512, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S256x512, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256x512, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S512x512, .f32⟩
  | .hbm, ⟨69, _⟩ => ⟨S256x512, .f32⟩
  | .hbm, ⟨70, _⟩ => ⟨S256x512, .f32⟩
  | .hbm, ⟨71, _⟩ => ⟨S512x512, .f32⟩
  | .hbm, ⟨72, _⟩ => ⟨S256x512, .f32⟩
  | .hbm, ⟨73, _⟩ => ⟨S256x512, .f32⟩
  | .hbm, ⟨74, _⟩ => ⟨S256x512, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x1x80x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  concatenates_S256x1x80x16_S256x1x80x16_S512x1x80x16_d0 : Shape.Concatenates [S256x1x80x16, S256x1x80x16] S512x1x80x16 0
  concatenates_S256x3x5x96x96_S256x3x5x96x96_S512x3x5x96x96_d0 : Shape.Concatenates [S256x3x5x96x96, S256x3x5x96x96] S512x3x5x96x96 0
  slices_S512x3x5x96x96_S512x3x5x48x96_0_0_0_48_0 : S512x3x5x96x96.Slices ![0, 0, 0, 48, 0] S512x3x5x48x96
  transposes_S512x3x5x48x96_S512x5x3x48x96_0_2_1_3_4 : S512x3x5x48x96.Transposes [0, 2, 1, 3, 4] S512x5x3x48x96
  shapeCasts_S512x5x3x48x96_S512x15x48x96 : S512x5x3x48x96.ShapeCasts S512x15x48x96
  shapeCasts_S512x1x80x16_S512x1280 : S512x1x80x16.ShapeCasts S512x1280
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  shapeCasts_S512x15x48x96_S512x69120 : S512x15x48x96.ShapeCasts S512x69120
  slices_S512x512_S256x512_0_0 : S512x512.Slices ![0, 0] S256x512
  slices_S512x512_S256x512_256_0 : S512x512.Slices ![256, 0] S256x512
  reducesTo_S256x512_S256_d1 : S256x512.ReducesTo [1] S256
  transposes_S512x512_S512x512_1_0 : S512x512.Transposes [1, 0] S512x512
  reducesTo_S256_S_d0 : S256.ReducesTo [0] S_
  dot_S512x1280_S1280x512_S512x512_1_0_0_1_n_n_wf : DotDims.WF S512x1280 S1280x512 S512x512 [1] [0] [0] [1] [] []
  dot_S512x69120_S69120x512_S512x512_1_0_0_1_n_n_wf : DotDims.WF S512x69120 S69120x512 S512x512 [1] [0] [0] [1] [] []
  dot_S256x512_S512x512_S256x512_1_0_0_1_n_n_wf : DotDims.WF S256x512 S512x512 S256x512 [1] [0] [0] [1] [] []

variable [Facts₀]

def dot_S512x1280_S1280x512_S512x512_1_0_0_1_n_n : DotDims S512x1280 S1280x512 S512x512 where
  lhsContracting := [1]
  rhsContracting := [0]
  lhsNonContracting := [0]
  rhsNonContracting := [1]
  lhsBatch := []
  rhsBatch := []
  wf := dot_S512x1280_S1280x512_S512x512_1_0_0_1_n_n_wf
def dot_S512x69120_S69120x512_S512x512_1_0_0_1_n_n : DotDims S512x69120 S69120x512 S512x512 where
  lhsContracting := [1]
  rhsContracting := [0]
  lhsNonContracting := [0]
  rhsNonContracting := [1]
  lhsBatch := []
  rhsBatch := []
  wf := dot_S512x69120_S69120x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

class Facts : Prop extends Facts₀ where

variable [Facts]
-- ==== Proof.K.Shared.lean ====
/-
  What the two accumulating matrix-product kernels' frame proofs share. Each kernel keeps a 512 x 512 accumulator in a
  scratch buffer across its grid points: the point with k = 0 zeroes it, every point adds its block's product, and the
  point with k = last copies it to the output window. Here: each window's block at a point read off the arrays as the
  region finds them; the two branch conditions in closed form over the grid; where the output window is idle and where
  it is written back; the staging and scratch memrefs by name.
-/
import proofs.«157482_j24283745091878_1_alg».proof.Proof.Gen.Kernel.Launch
import proofs.«157482_j24283745091878_1_alg».proof.Proof.Gen.Kernel.Skeleton
import proofs.«157482_j24283745091878_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when a region is entered
variable (V : (c : Dev nD) → (b : Ref sig .tc) → Buf (Elt F) ((c : Thread nD τ).loc b))

/-! ## The audio product (one grid point) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The visual product (nine grid points) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, decided over the grids -/

/-- "This is the first point" (k = 0), as the audio kernel computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) :=
  (by decide +kernel : ∀ t : Fin grid0.N, cond0_0 (grid0.coords t))
/-- "This is the last point": the audio grid has one point, which is both. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- "This is the first point" (k = 0), as the visual kernel computes it: at point 0 of nine. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 9 = 0 :=
  (by decide +kernel : ∀ t : Fin grid1.N, cond1_0 (grid1.coords t) ↔ t.val % 9 = 0)
/-- "This is the last point" (k = 8): at point 8 of nine. -/
abbrev cond1_1 (i : grid1.Coords) : Prop := k1_cond2 i = 1#1
theorem hcond1_1 : ∀ t : Fin cfg1.N, cond1_1 (grid1.coords t) ↔ t.val % 9 = 8 :=
  (by decide +kernel : ∀ t : Fin grid1.N, cond1_1 (grid1.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The audio kernel stores its output at its one point. -/
theorem liveAt0_2 : ∀ t : Fin cfg0.N, cfg0.idle 2 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the visual kernel stores nothing into its output window, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it stores the accumulator there. -/
theorem liveAt1_2 : ∀ t : Fin cfg1.N, cond1_1 (grid1.coords t) → cfg1.idle 2 (grid1.coords t) = false := by decide +kernel

/-! ## The memrefs the bodies are called with -/

abbrev VO0_2 : View sig .tc .vmem S512x512 .f32 := (Memref.whole cc0_stg2_0 : Memref sig .tc .vmem S512x512 .f32).view
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
/-- The audio kernel's accumulator. -/
abbrev scM0_0 : Memref sig .tc .vmem S512x512 .f32 := Memref.whole cc0_scratch0
abbrev VS0_0 : View sig .tc .vmem S512x512 .f32 := scM0_0.view

abbrev VO1_2 : View sig .tc .vmem S512x512 .f32 := (Memref.whole cc1_stg2_0 : Memref sig .tc .vmem S512x512 .f32).view
abbrev ms1_0 (t : Fin cfg1.N) : Memref sig .tc .vmem S512x7680 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7680x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
/-- The visual kernel's accumulator, carried from point to point. -/
abbrev scM1_0 : Memref sig .tc .vmem S512x512 .f32 := Memref.whole cc1_scratch0
abbrev VS1_0 : View sig .tc .vmem S512x512 .f32 := scM1_0.view

/-- A scoped buffer at some contents. -/
abbrev anyAt (c : Dev nD) (b : Ref sig .tc) : sProp 𝕄 :=
  iprop(∃ f : Buf (Elt F) ((c : Thread nD τ).loc b), ((c : Thread nD τ).loc b) ↦{fullShare} f)

/-- What the audio region's invariant holds when nothing is said of the accumulator: the accumulator at some contents,
    the other kernel's staging buffers and accumulator at some contents, the generator register at some state. -/
theorem PhiA0_eq (c : Dev nD) :
    (Pipeline.ΦA spec0 c : sProp 𝕄)
      = iprop(iprop((∃ d, owns (c : Thread nD τ) scM0_0 fullShare d) ∗ anyAt (F := F) c cc1_stg0_0 ∗ anyAt (F := F) c cc1_stg0_1 ∗ anyAt (F := F) c cc1_stg1_0
          ∗ anyAt (F := F) c cc1_stg1_1 ∗ anyAt (F := F) c cc1_stg2_0 ∗ anyAt (F := F) c cc1_scratch0) ∗ (∃ r, prngReg c r)) := by
  unfold Pipeline.ΦA; rw [scopedRest0_eq]; simp only [scM0_0, owns_whole]; try rfl
/-- The same for the visual region: the audio kernel's buffers at some contents beside its own accumulator. -/
theorem PhiA1_eq (c : Dev nD) :
    (Pipeline.ΦA spec1 c : sProp 𝕄)
      = iprop(iprop(anyAt (F := F) c cc0_stg0_0 ∗ anyAt (F := F) c cc0_stg1_0 ∗ anyAt (F := F) c cc0_stg2_0 ∗ anyAt (F := F) c cc0_scratch0
          ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.K.Run0.lean ====
/-
  The audio kernel's body run whole at its one grid point, which is first and last at once: the accumulator is zeroed, the product of the two blocks is added, and the accumulator is copied to the output window.
-/
import proofs.«157482_j24283745091878_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun0 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i)
    (x0 : Vec F S512x1280 .bf16) (x1 : Vec F S1280x512 .bf16) :
    Σ' (L2 : List (View.Piece (Elt F) S512x512 .f32)), { LS0 : List (View.Piece (Elt F) S512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__matmul_kernel i arg1 harg1 arg2 harg2 arg3 harg3 arg4 harg4) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.Reg0.lean ====
/-
  The audio product's region: its one grid point zeroes the accumulator, adds the product and copies the accumulator to
  the output window; nothing is carried, so the region's invariant says nothing of the accumulator.
-/
import proofs.«157482_j24283745091878_1_alg».proof.Proof.K.Run0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's store covers the output window, -/
theorem cover0_2 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i) (x0 : Vec F S512x1280 .bf16) (x1 : Vec F S1280x512 .bf16) (y : S512x512.Idx) :
    ∃ pc ∈ (kernelRun0 c i arg1 harg1 arg2 harg2 arg3 harg3 arg4 harg4 hc0 hc1 x0 x1).1, y ∈ pc.1.set :=
  View.cover_of_tiledL (kernelRun0 c i arg1 harg1 arg2 harg2 arg3 harg3 arg4 harg4 hc0 hc1 x0 x1).1 S512x512.size (by sl_kernel_rfl) y
/-- which then holds: -/
def out0_2 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i) (x0 : Vec F S512x1280 .bf16) (x1 : Vec F S1280x512 .bf16) : Vec F S512x512 .f32 :=
  VO0_2.read (Elt F) (VO0_2.writes (Elt F) VO0_2.junk (kernelRun0 c i arg1 harg1 arg2 harg2 arg3 harg3 arg4 harg4 hc0 hc1 x0 x1).1)

section
variable (V : (c : Dev nD) → (b : Ref sig .tc) → Buf (Elt F) ((c : Thread nD τ).loc b))

/-- The audio pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at the point: the inputs' buffers hold their blocks, the accumulator and the output window's buffer are handed
    over at whatever they hold, and come back stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_2; (try dsimp only)
  iintro ⟨⟨⟨HS0, Ha, Hb, Hc, Hd, He, Hf⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Ha Hb Hc Hd He Hf Hg]
  · isplitl [HS0 Ha Hb Hc Hd He Hf]
    · isplitl [HS0]
      · iexists _; unfold owns; iexists _; isplitr
        swap; · iexact HS0
        ipureintro; rfl
      isplitl [Ha]; · iexact Ha
      isplitl [Hb]; · iexact Hb
      isplitl [Hc]; · iexact Hc
      isplitl [Hd]; · iexact Hd
      isplitl [He]; · iexact He
      iexact Hf
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.Run1A.lean ====
/-
  The visual kernel's body run whole at the first grid point: the accumulator is zeroed and the first block's product added; the output window is not touched.
-/
import proofs.«157482_j24283745091878_1_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_A (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i)
    (x0 : Vec F S512x7680 .bf16) (x1 : Vec F S7680x512 .bf16) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.Run1B.lean ====
/-
  The visual kernel's body run whole at a middle grid point: the block's product is added to the accumulator the point before left; the output window is not touched.
-/
import proofs.«157482_j24283745091878_1_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_B (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i)
    (x0 : Vec F S512x7680 .bf16) (x1 : Vec F S7680x512 .bf16) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.Run1C.lean ====
/-
  The visual kernel's body run whole at the last grid point: the last block's product is added to the accumulator the point before left, and the accumulator is copied to the output window.
-/
import proofs.«157482_j24283745091878_1_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_C (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i)
    (x0 : Vec F S512x7680 .bf16) (x1 : Vec F S7680x512 .bf16) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.Reg1.lean ====
/-
  The visual product's region: what its accumulator and its output window hold after each of the nine grid points, the
  region's invariant (the accumulator at the contents the point before left), the proof data and the body obligation.
-/
import proofs.«157482_j24283745091878_1_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's stores cover the accumulator. -/
theorem scover1_A_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i) (x0 : Vec F S512x7680 .bf16) (x1 : Vec F S7680x512 .bf16) (y : S512x512.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S512x512.size (by sl_kernel_rfl) y
/-- What the first point leaves in the accumulator. -/
def sout1_A_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i) (x0 : Vec F S512x7680 .bf16) (x1 : Vec F S7680x512 .bf16) : Vec F S512x512 .f32 :=
  VS1_0.read (Elt F) (VS1_0.writes (Elt F) VS1_0.junk (kernelRun1_A c i arg1 harg1 arg2 harg2 arg3 harg3 arg4 harg4 hc0 hc1 x0 x1).2.1)

/-- A middle point's store covers the accumulator. -/
theorem scover1_B_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i) (x0 : Vec F S512x7680 .bf16) (x1 : Vec F S7680x512 .bf16) (xs0 : Vec F S512x512 .f32) (y : S512x512.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S512x512.size (by sl_kernel_rfl) y
/-- What a middle point leaves in the accumulator, over what the point before left. -/
def sout1_B_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i) (x0 : Vec F S512x7680 .bf16) (x1 : Vec F S7680x512 .bf16) (xs0 : Vec F S512x512 .f32) : Vec F S512x512 .f32 :=
  VS1_0.read (Elt F) (VS1_0.writes (Elt F) VS1_0.junk (kernelRun1_B c i arg1 harg1 arg2 harg2 arg3 harg3 arg4 harg4 hc0 hc1 x0 x1 xs0).2.1)

/-- The last point's store covers the output window, -/
theorem cover1_C_2 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) (y : S512x512.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S512x512.size (by sl_kernel_rfl) y
/-- which then holds: -/
def out1_C_2 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) : Vec F S512x512 .f32 :=
  VO1_2.read (Elt F) (VO1_2.writes (Elt F) VO1_2.junk (kernelRun1_C c i arg1 harg1 arg2 harg2 arg3 harg3 arg4 harg4 hc0 hc1 x0 x1 xs0).1)
/-- and its store into the accumulator covers it. -/
theorem scover1_C_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) (y : S512x512.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S512x512.size (by sl_kernel_rfl) y
def sout1_C_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) : Vec F S512x512 .f32 :=
  VS1_0.read (Elt F) (VS1_0.writes (Elt F) VS1_0.junk (kernelRun1_C c i arg1 harg1 arg2 harg2 arg3 harg3 arg4 harg4 hc0 hc1 x0 x1 xs0).2.1)

section
variable (V : (c : Dev nD) → (b : Ref sig .tc) → Buf (Elt F) ((c : Thread nD τ).loc b))

theorem N1_lt {n : ℕ} (hn : n < cfg1.N) : n < 9 := lt_of_lt_of_eq hn (show cfg1.N = 9 from N_1)

/-! ## Point by point -/

/-- THE ACCUMULATION: what the output window's buffer and the accumulator hold after the body at position `n` (a pair;
    before the last point the output window is idle and its component is a placeholder nothing reads). Point 0 resets the
    accumulator and adds; every later point adds to what the point before left; point 8 also copies it out. -/
def outsAt1 (c : Dev nD) : (n : ℕ) → n < cfg1.N → Vec F S512x512 .f32 × Vec F S512x512 .f32
  | 0, hn =>
    (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩))
  | n + 1, hn =>
    if h1 : (n + 1) % 9 = 8 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) ((hcond1_1 ⟨n + 1, hn⟩).mpr h1) (iblk1 V c 0 ⟨n + 1, hn⟩) (iblk1 V c 1 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) ((hcond1_1 ⟨n + 1, hn⟩).mpr h1) (iblk1 V c 0 ⟨n + 1, hn⟩) (iblk1 V c 1 ⟨n + 1, hn⟩) (outsAt1 c n (Nat.lt_of_succ_lt hn)).2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) (fun h => h1 ((hcond1_1 ⟨n + 1, hn⟩).mp h)) (iblk1 V c 0 ⟨n + 1, hn⟩) (iblk1 V c 1 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val % 9 = 0) (h1 : ¬t.val % 9 = 8) :
    outsAt1 V c t.val t.isLt = (sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have := N1_lt hn; (try dsimp only at h0); omega)

/-- At a middle point. -/
theorem outsAt1_B (c : Dev nD) (t : Fin cfg1.N) (h0 : ¬t.val % 9 = 0) (h1 : ¬t.val % 9 = 8) :
    outsAt1 V c t.val t.isLt = (sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point. -/
theorem outsAt1_C (c : Dev nD) (t : Fin cfg1.N) (h0 : ¬t.val % 9 = 0) (h1 : t.val % 9 = 8) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-! ## The invariant -/

/-- Before position `n`: at the start nothing is said of the accumulator; afterwards it holds what the point before
    left. The other kernel's scoped buffers and the generator register ride along at some contents. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c (n - 1) (by omega)).2)) ∗ (∃ r, prngReg c r)) := by
  cases n with
  | zero => exact absurd rfl hz
  | succ n => rfl

/-! ## The proof data -/

/-- The visual pipeline's proof data on core `c`: the arrays as the region finds them; after the body each input's buffer at
    its block, the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's position decides the case; the invariant hands
    the body the accumulator (at anything at the first point, at what the point before left afterwards) and takes it back at
    this point's contents; before the last point the output window's buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 9 := N1_lt t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 9 = 8
  · have h0 : ¬t.val % 9 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨⟨Ha, Hb, Hc, Hd, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ha Hb Hc Hd HS0 Hg]
    · isplitl [Ha Hb Hc Hd HS0]
      · isplitl [Ha]; · iexact Ha
        isplitl [Hb]; · iexact Hb
        isplitl [Hc]; · iexact Hc
        isplitl [Hd]; · iexact Hd
        unfold owns; iexists _; isplitr
        swap; · iexact HS0
        ipureintro; exact View.read_writes_of_cover _ _ _ _ _ (scover1_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 9 = 0
    · have hz : t.val = 0 := by omega
      rw [outsAt1_A V c t h0 h1]
      unfold sout1_A_0; (try dsimp only)
      rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt1_B V c t h0 h1]
      unfold sout1_B_0; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end

end Cert.Kernel.Fr

end
-- ==== Proof.K.Main.lean ====
/-
  The whole run of the program, read as values. @main is: the host operations that build the operands, the audio
  region, the visual region, then the host operations of the loss. Between two items every unscoped buffer is held at a
  named valuation: after the audio region its result array holds what the pipeline's write-backs leave (the proof data's
  last array contents), after the visual region likewise, every other buffer as before; the host stretches are the
  library's host segments over the generated valuations. Each region is entered from the valuation before it and left at
  the one after it; the accumulator's named contents are forgotten at the visual region's exit. The launch theorem for a
  list of segments then gives: every weakly fair execution terminates and every unscoped buffer ends at the last
  valuation — from which the frame claim (the arguments unchanged) and the result's value are both read.
-/
import proofs.«157482_j24283745091878_1_alg».proof.Proof.K.Reg0
import proofs.«157482_j24283745091878_1_alg».proof.Proof.K.Reg1
import proofs.«157482_j24283745091878_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations -/

/-- The buffers when the audio region is entered, read at the TensorCore's references. -/
abbrev EV1 : (c : Dev nD) → (b : Ref sig .tc) → Buf (Elt F) ((c : Thread nD τ).loc b) := fun c b => V1 m c b
/-- What the audio region leaves in its result array. -/
def X0 (c : Dev nD) : Buf (Elt F) ((c : Thread nD τ).loc main_v11) := (dat0 (EV1 m) c).arrAt 2 cfg0.N
/-- The buffers after the audio region. -/
def W2 (c : Dev nD) : Valuation τ sig (Elt F) := Function.update (V1 m c) main_v11 (X0 m c)
abbrev EV2 : (c : Dev nD) → (b : Ref sig .tc) → Buf (Elt F) ((c : Thread nD τ).loc b) := fun c b => W2 m c b
/-- What the visual region leaves in its result array. -/
def X1 (c : Dev nD) : Buf (Elt F) ((c : Thread nD τ).loc main_v12) := (dat1 (EV2 m) c).arrAt 2 cfg1.N
/-- The buffers after the visual region. -/
def W3 (c : Dev nD) : Valuation τ sig (Elt F) := Function.update (W2 m c) main_v12 (X1 m c)
abbrev EV3 : (c : Dev nD) → (b : Ref sig .tc) → Buf (Elt F) ((c : Thread nD τ).loc b) := fun c b => W3 m c b

/-- The regions' results, as the generated valuations take them. -/
def outsOf : Outs (F := F) := fun J r c => if J = 2 then W2 m c r else W3 m c r

theorem W2_self (c : Dev nD) : W2 m c main_v11 = X0 m c := by
  unfold W2; simp only [Function.update_self]
theorem W3_self (c : Dev nD) : W3 m c main_v12 = X1 m c := by
  unfold W3; simp only [Function.update_self]
theorem V2_eq (c : Dev nD) : V2 m (outsOf m) c = W2 m c := by
  unfold V2 outsOf
  simp only [if_true]
  rw [W2_self]; rfl
theorem V3_eq (c : Dev nD) : V3 m (outsOf m) c = W3 m c := by
  unfold V3
  rw [V2_eq]
  unfold outsOf
  simp only [show ¬ (3 : ℕ) = 2 from by decide, if_false]
  rw [W3_self]; rfl

theorem W2_of (c : Dev nD) (r : Ref sig .tc) (h : r ∉ ([main_v11] : List (Ref sig .tc))) : W2 m c r = V1 m c r := by
  simp only [W2, Function.update_of_ne (StableHlo.devRef_ne_of_ne (List.ne_of_not_mem_cons h) : (Proc.devRef .tc r : DevRef τ sig) ≠ Proc.devRef .tc main_v11)]
theorem W3_of (c : Dev nD) (r : Ref sig .tc) (h : r ∉ ([main_v12] : List (Ref sig .tc))) : W3 m c r = W2 m c r := by
  simp only [W3, Function.update_of_ne (StableHlo.devRef_ne_of_ne (List.ne_of_not_mem_cons h) : (Proc.devRef .tc r : DevRef τ sig) ≠ Proc.devRef .tc main_v12)]

/-- At the audio region's exit each of its arrays holds what the pipeline leaves, -/
theorem hF0 (c : Dev nD) (w : Fin cfg0.W) : (dat0 (EV1 m) c).arrAt w cfg0.N = EV2 m c (Pipeline.arrRef spec0 w) :=
  match w with
  | ⟨0, _⟩ => (((dat0 (EV1 m) c).arrAt_in 0 rfl _).trans (A_eq0 (EV1 m) c 0)).trans (W2_of m c main_v6 (by decide)).symm
  | ⟨1, _⟩ => (((dat0 (EV1 m) c).arrAt_in 1 rfl _).trans (A_eq0 (EV1 m) c 1)).trans (W2_of m c main_v9 (by decide)).symm
  | ⟨2, _⟩ => by show X0 m c = W2 m c main_v11; unfold W2; simp only [Function.update_self]
/-- and every other buffer what it held at entry. -/
theorem hrest0 (c : Dev nD) : ∀ b, b ∉ Finset.univ.image (Pipeline.arrRef spec0) → EV2 m c b = EV1 m c b :=
  fun b hb => W2_of m c b (by
    intro hm
    exact hb (Finset.mem_image.mpr ⟨2, Finset.mem_univ _, (List.mem_singleton.mp hm).symm⟩))

theorem hF1 (c : Dev nD) (w : Fin cfg1.W) : (dat1 (EV2 m) c).arrAt w cfg1.N = EV3 m c (Pipeline.arrRef spec1 w) :=
  match w with
  | ⟨0, _⟩ => (((dat1 (EV2 m) c).arrAt_in 0 rfl _).trans (A_eq1 (EV2 m) c 0)).trans (W3_of m c main_v8 (by decide)).symm
  | ⟨1, _⟩ => (((dat1 (EV2 m) c).arrAt_in 1 rfl _).trans (A_eq1 (EV2 m) c 1)).trans (W3_of m c main_v10 (by decide)).symm
  | ⟨2, _⟩ => by show X1 m c = W3 m c main_v12; unfold W3; simp only [Function.update_self]
theorem hrest1 (c : Dev nD) : ∀ b, b ∉ Finset.univ.image (Pipeline.arrRef spec1) → EV3 m c b = EV2 m c b :=
  fun b hb => W3_of m c b (by
    intro hm
    exact hb (Finset.mem_image.mpr ⟨2, Finset.mem_univ _, (List.mem_singleton.mp hm).symm⟩))

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (EV1 m) c
  | ⟨1, _⟩ => fun c => dat1 (EV2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- The audio region: entered from every unscoped buffer at the first host stretch's results, left with its result
    array at what the pipeline leaves. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EV1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (EV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EV1 m c) (EV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The visual region: entered from the buffers after the audio region, left with its result array at what the
    pipeline leaves; the accumulator's named contents go back into "some contents" at the exit. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EV2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (EV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ (Pipeline.ΦA spec1 c : sProp 𝕄) := by
      unfold Pipeline.ΦA
      iintro ⟨Hp, -, Hr⟩
      isplitl [Hr]; · iexact Hr
      iexact Hp
    exact h1.trans (hin1 (EV2 m) c)
  hout c := by
    rw [Pipeline.ownSems0_none]
    have h2 : (Pipeline.ΦA spec1 c : sProp 𝕄) ⊢ (iprop((∃ r, prngReg c r) ∗ emp ∗ Pipeline.scopedRest spec1 c) : sProp 𝕄) := by
      unfold Pipeline.ΦA
      iintro ⟨Hr, Hp⟩
      isplitl [Hp]; · iexact Hp
      isplitr; · iempintro
      iexact Hr
    exact (hout1 (EV2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EV2 m c) (EV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The rest state beside the buffers, the same at every item. -/
abbrev Er : Fin 3 → Dev nD → sProp 𝕄 := fun _ c => Rr c

set_option backward.isDefEq.respectTransparency.types false in
/-- Every weakly fair execution of @main from memory `m` with zero counters terminates, and in every final state every
    unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outsOf m) c b) := by
  refine Pipeline.θ_run_regions_kit_dev (pcfgs (F := F)) adm (pdats m) () cellOf_inj emb₁ defs₀ 𝒱₀ L lv m ρ main
    (segs m (outsOf m) 𝒱₀ L lv Er () (pdats m) (reg0 m) (reg1 m))
    (fun c Q => by
      rewrite [main_chain c, Seg.run_eq_chain,
        show (segs m (outsOf m) 𝒱₀ L lv Er () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V7 m (outsOf m) c))
    (hch := fun c => ⟨.rfl, .rfl, .rfl,
      (show (iprop(StableHlo.held (c : Thread nD τ) (Pipeline.ucRefs τ sig) (W3 m c) ∗ Rr c) : sProp 𝕄)
          ⊢ iprop(StableHlo.held (c : Thread nD τ) (Pipeline.ucRefs τ sig) (V3 m (outsOf m) c) ∗ Rr c) from by rw [V3_eq]),
      .rfl, .rfl, .rfl,
      sep_mono .rfl (by iintro ⟨-, HO⟩; iexact HO)⟩)
    (hinit := ?_)
    (QY := fun c s => ∀ b ∈ Pipeline.ucRefs τ sig, s.mem (((c : Thread nD τ)).1, b) = V7 m (outsOf m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V7 m (outsOf m) c) s')
    isplitl [Hh] <;> iassumption

end Cert.Kernel.Fr

end
-- ==== Proof.KI.Shared.lean ====
/-
  What the two accumulating matrix-product kernels' frame proofs share. Each kernel keeps a 512 x 512 accumulator in a
  scratch buffer across its grid points: the point with k = 0 zeroes it, every point adds its block's product, and the
  point with k = last copies it to the output window. Here: each window's block at a point read off the arrays as the
  region finds them; the two branch conditions in closed form over the grid; where the output window is idle and where
  it is written back; the staging and scratch memrefs by name.
-/
import proofs.«157482_j24283745091878_1_alg».proof.Proof.Gen.KernelIdeal.Launch
import proofs.«157482_j24283745091878_1_alg».proof.Proof.Gen.KernelIdeal.Skeleton
import proofs.«157482_j24283745091878_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when a region is entered
variable (V : (c : Dev nD) → (b : Ref sig .tc) → Buf (Elt F) ((c : Thread nD τ).loc b))

/-! ## The audio product (one grid point) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The visual product (nine grid points) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, decided over the grids -/

/-- "This is the first point" (k = 0), as the audio kernel computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) :=
  (by decide +kernel : ∀ t : Fin grid0.N, cond0_0 (grid0.coords t))
/-- "This is the last point": the audio grid has one point, which is both. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- "This is the first point" (k = 0), as the visual kernel computes it: at point 0 of nine. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 9 = 0 :=
  (by decide +kernel : ∀ t : Fin grid1.N, cond1_0 (grid1.coords t) ↔ t.val % 9 = 0)
/-- "This is the last point" (k = 8): at point 8 of nine. -/
abbrev cond1_1 (i : grid1.Coords) : Prop := k1_cond2 i = 1#1
theorem hcond1_1 : ∀ t : Fin cfg1.N, cond1_1 (grid1.coords t) ↔ t.val % 9 = 8 :=
  (by decide +kernel : ∀ t : Fin grid1.N, cond1_1 (grid1.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The audio kernel stores its output at its one point. -/
theorem liveAt0_2 : ∀ t : Fin cfg0.N, cfg0.idle 2 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
/-- Before the last point the visual kernel stores nothing into its output window, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it stores the accumulator there. -/
theorem liveAt1_2 : ∀ t : Fin cfg1.N, cond1_1 (grid1.coords t) → cfg1.idle 2 (grid1.coords t) = false := by decide +kernel

/-! ## The memrefs the bodies are called with -/

abbrev VO0_2 : View sig .tc .vmem S512x512 .f32 := (Memref.whole cc0_stg2_0 : Memref sig .tc .vmem S512x512 .f32).view
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
/-- The audio kernel's accumulator. -/
abbrev scM0_0 : Memref sig .tc .vmem S512x512 .f32 := Memref.whole cc0_scratch0
abbrev VS0_0 : View sig .tc .vmem S512x512 .f32 := scM0_0.view

abbrev VO1_2 : View sig .tc .vmem S512x512 .f32 := (Memref.whole cc1_stg2_0 : Memref sig .tc .vmem S512x512 .f32).view
abbrev ms1_0 (t : Fin cfg1.N) : Memref sig .tc .vmem S512x7680 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S7680x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
/-- The visual kernel's accumulator, carried from point to point. -/
abbrev scM1_0 : Memref sig .tc .vmem S512x512 .f32 := Memref.whole cc1_scratch0
abbrev VS1_0 : View sig .tc .vmem S512x512 .f32 := scM1_0.view

/-- A scoped buffer at some contents. -/
abbrev anyAt (c : Dev nD) (b : Ref sig .tc) : sProp 𝕄 :=
  iprop(∃ f : Buf (Elt F) ((c : Thread nD τ).loc b), ((c : Thread nD τ).loc b) ↦{fullShare} f)

/-- What the audio region's invariant holds when nothing is said of the accumulator: the accumulator at some contents,
    the other kernel's staging buffers and accumulator at some contents, the generator register at some state. -/
theorem PhiA0_eq (c : Dev nD) :
    (Pipeline.ΦA spec0 c : sProp 𝕄)
      = iprop(iprop((∃ d, owns (c : Thread nD τ) scM0_0 fullShare d) ∗ anyAt (F := F) c cc1_stg0_0 ∗ anyAt (F := F) c cc1_stg0_1 ∗ anyAt (F := F) c cc1_stg1_0
          ∗ anyAt (F := F) c cc1_stg1_1 ∗ anyAt (F := F) c cc1_stg2_0 ∗ anyAt (F := F) c cc1_scratch0) ∗ (∃ r, prngReg c r)) := by
  unfold Pipeline.ΦA; rw [scopedRest0_eq]; simp only [scM0_0, owns_whole]; try rfl
/-- The same for the visual region: the audio kernel's buffers at some contents beside its own accumulator. -/
theorem PhiA1_eq (c : Dev nD) :
    (Pipeline.ΦA spec1 c : sProp 𝕄)
      = iprop(iprop(anyAt (F := F) c cc0_stg0_0 ∗ anyAt (F := F) c cc0_stg1_0 ∗ anyAt (F := F) c cc0_stg2_0 ∗ anyAt (F := F) c cc0_scratch0
          ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.Run0.lean ====
/-
  The audio kernel's body run whole at its one grid point, which is first and last at once: the accumulator is zeroed, the product of the two blocks is added, and the accumulator is copied to the output window.
-/
import proofs.«157482_j24283745091878_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun0 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i)
    (x0 : Vec F S512x1280 .bf16) (x1 : Vec F S1280x512 .bf16) :
    Σ' (L2 : List (View.Piece (Elt F) S512x512 .f32)), { LS0 : List (View.Piece (Elt F) S512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__matmul_kernel i arg1 harg1 arg2 harg2 arg3 harg3 arg4 harg4) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.Reg0.lean ====
/-
  The audio product's region: its one grid point zeroes the accumulator, adds the product and copies the accumulator to
  the output window; nothing is carried, so the region's invariant says nothing of the accumulator.
-/
import proofs.«157482_j24283745091878_1_alg».proof.Proof.KI.Run0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's store covers the output window, -/
theorem cover0_2 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i) (x0 : Vec F S512x1280 .bf16) (x1 : Vec F S1280x512 .bf16) (y : S512x512.Idx) :
    ∃ pc ∈ (kernelRun0 c i arg1 harg1 arg2 harg2 arg3 harg3 arg4 harg4 hc0 hc1 x0 x1).1, y ∈ pc.1.set :=
  View.cover_of_tiledL (kernelRun0 c i arg1 harg1 arg2 harg2 arg3 harg3 arg4 harg4 hc0 hc1 x0 x1).1 S512x512.size (by sl_kernel_rfl) y
/-- which then holds: -/
def out0_2 (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i) (x0 : Vec F S512x1280 .bf16) (x1 : Vec F S1280x512 .bf16) : Vec F S512x512 .f32 :=
  VO0_2.read (Elt F) (VO0_2.writes (Elt F) VO0_2.junk (kernelRun0 c i arg1 harg1 arg2 harg2 arg3 harg3 arg4 harg4 hc0 hc1 x0 x1).1)

section
variable (V : (c : Dev nD) → (b : Ref sig .tc) → Buf (Elt F) ((c : Thread nD τ).loc b))

/-- The audio pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at the point: the inputs' buffers hold their blocks, the accumulator and the output window's buffer are handed
    over at whatever they hold, and come back stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_2; (try dsimp only)
  iintro ⟨⟨⟨HS0, Ha, Hb, Hc, Hd, He, Hf⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Ha Hb Hc Hd He Hf Hg]
  · isplitl [HS0 Ha Hb Hc Hd He Hf]
    · isplitl [HS0]
      · iexists _; unfold owns; iexists _; isplitr
        swap; · iexact HS0
        ipureintro; rfl
      isplitl [Ha]; · iexact Ha
      isplitl [Hb]; · iexact Hb
      isplitl [Hc]; · iexact Hc
      isplitl [Hd]; · iexact Hd
      isplitl [He]; · iexact He
      iexact Hf
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.Run1A.lean ====
/-
  The visual kernel's body run whole at the first grid point: the accumulator is zeroed and the first block's product added; the output window is not touched.
-/
import proofs.«157482_j24283745091878_1_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_A (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i)
    (x0 : Vec F S512x7680 .bf16) (x1 : Vec F S7680x512 .bf16) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.Run1B.lean ====
/-
  The visual kernel's body run whole at a middle grid point: the block's product is added to the accumulator the point before left; the output window is not touched.
-/
import proofs.«157482_j24283745091878_1_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_B (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i)
    (x0 : Vec F S512x7680 .bf16) (x1 : Vec F S7680x512 .bf16) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.Run1C.lean ====
/-
  The visual kernel's body run whole at the last grid point: the last block's product is added to the accumulator the point before left, and the accumulator is copied to the output window.
-/
import proofs.«157482_j24283745091878_1_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: the two input blocks stay as they were, and each buffer the body stores into ends with
    its stores written over what it held (the stores, last first, are the lists found when the run hands the buffers on). -/
noncomputable def kernelRun1_C (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i)
    (x0 : Vec F S512x7680 .bf16) (x1 : Vec F S7680x512 .bf16) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__matmul_kernel i arg1 harg1 arg2 harg2 arg3 harg3 arg4 harg4) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.Reg1.lean ====
/-
  The visual product's region: what its accumulator and its output window hold after each of the nine grid points, the
  region's invariant (the accumulator at the contents the point before left), the proof data and the body obligation.
-/
import proofs.«157482_j24283745091878_1_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first point's stores cover the accumulator. -/
theorem scover1_A_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i) (x0 : Vec F S512x7680 .bf16) (x1 : Vec F S7680x512 .bf16) (y : S512x512.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S512x512.size (by sl_kernel_rfl) y
/-- What the first point leaves in the accumulator. -/
def sout1_A_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i) (x0 : Vec F S512x7680 .bf16) (x1 : Vec F S7680x512 .bf16) : Vec F S512x512 .f32 :=
  VS1_0.read (Elt F) (VS1_0.writes (Elt F) VS1_0.junk (kernelRun1_A c i arg1 harg1 arg2 harg2 arg3 harg3 arg4 harg4 hc0 hc1 x0 x1).2.1)

/-- A middle point's store covers the accumulator. -/
theorem scover1_B_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i) (x0 : Vec F S512x7680 .bf16) (x1 : Vec F S7680x512 .bf16) (xs0 : Vec F S512x512 .f32) (y : S512x512.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S512x512.size (by sl_kernel_rfl) y
/-- What a middle point leaves in the accumulator, over what the point before left. -/
def sout1_B_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i) (x0 : Vec F S512x7680 .bf16) (x1 : Vec F S7680x512 .bf16) (xs0 : Vec F S512x512 .f32) : Vec F S512x512 .f32 :=
  VS1_0.read (Elt F) (VS1_0.writes (Elt F) VS1_0.junk (kernelRun1_B c i arg1 harg1 arg2 harg2 arg3 harg3 arg4 harg4 hc0 hc1 x0 x1 xs0).2.1)

/-- The last point's store covers the output window, -/
theorem cover1_C_2 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) (y : S512x512.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S512x512.size (by sl_kernel_rfl) y
/-- which then holds: -/
def out1_C_2 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) : Vec F S512x512 .f32 :=
  VO1_2.read (Elt F) (VO1_2.writes (Elt F) VO1_2.junk (kernelRun1_C c i arg1 harg1 arg2 harg2 arg3 harg3 arg4 harg4 hc0 hc1 x0 x1 xs0).1)
/-- and its store into the accumulator covers it. -/
theorem scover1_C_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) (y : S512x512.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S512x512.size (by sl_kernel_rfl) y
def sout1_C_0 (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) : Vec F S512x512 .f32 :=
  VS1_0.read (Elt F) (VS1_0.writes (Elt F) VS1_0.junk (kernelRun1_C c i arg1 harg1 arg2 harg2 arg3 harg3 arg4 harg4 hc0 hc1 x0 x1 xs0).2.1)

section
variable (V : (c : Dev nD) → (b : Ref sig .tc) → Buf (Elt F) ((c : Thread nD τ).loc b))

theorem N1_lt {n : ℕ} (hn : n < cfg1.N) : n < 9 := lt_of_lt_of_eq hn (show cfg1.N = 9 from N_1)

/-! ## Point by point -/

/-- THE ACCUMULATION: what the output window's buffer and the accumulator hold after the body at position `n` (a pair;
    before the last point the output window is idle and its component is a placeholder nothing reads). Point 0 resets the
    accumulator and adds; every later point adds to what the point before left; point 8 also copies it out. -/
def outsAt1 (c : Dev nD) : (n : ℕ) → n < cfg1.N → Vec F S512x512 .f32 × Vec F S512x512 .f32
  | 0, hn =>
    (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => absurd ((hcond1_1 ⟨0, hn⟩).mp h) (by (try dsimp only); omega)) (iblk1 V c 0 ⟨0, hn⟩) (iblk1 V c 1 ⟨0, hn⟩))
  | n + 1, hn =>
    if h1 : (n + 1) % 9 = 8 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) ((hcond1_1 ⟨n + 1, hn⟩).mpr h1) (iblk1 V c 0 ⟨n + 1, hn⟩) (iblk1 V c 1 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) ((hcond1_1 ⟨n + 1, hn⟩).mpr h1) (iblk1 V c 0 ⟨n + 1, hn⟩) (iblk1 V c 1 ⟨n + 1, hn⟩) (outsAt1 c n (Nat.lt_of_succ_lt hn)).2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) (fun h => h1 ((hcond1_1 ⟨n + 1, hn⟩).mp h)) (iblk1 V c 0 ⟨n + 1, hn⟩) (iblk1 V c 1 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => absurd ((hcond1_0 ⟨n + 1, hn⟩).mp h) (by have := N1_lt hn; (try dsimp only); omega)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val % 9 = 0) (h1 : ¬t.val % 9 = 8) :
    outsAt1 V c t.val t.isLt = (sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have := N1_lt hn; (try dsimp only at h0); omega)

/-- At a middle point. -/
theorem outsAt1_B (c : Dev nD) (t : Fin cfg1.N) (h0 : ¬t.val % 9 = 0) (h1 : ¬t.val % 9 = 8) :
    outsAt1 V c t.val t.isLt = (sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point. -/
theorem outsAt1_C (c : Dev nD) (t : Fin cfg1.N) (h0 : ¬t.val % 9 = 0) (h1 : t.val % 9 = 8) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-! ## The invariant -/

/-- Before position `n`: at the start nothing is said of the accumulator; afterwards it holds what the point before
    left. The other kernel's scoped buffers and the generator register ride along at some contents. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop(anyAt (F := F) c cc0_stg0_0 ∗ anyAt (F := F) c cc0_stg1_0 ∗ anyAt (F := F) c cc0_stg2_0 ∗ anyAt (F := F) c cc0_scratch0
      ∗ owns (c : Thread nD τ) scM1_0 fullShare ((outsAt1 V c (n - 1) (by omega)).2)) ∗ (∃ r, prngReg c r)) := by
  cases n with
  | zero => exact absurd rfl hz
  | succ n => rfl

/-! ## The proof data -/

/-- The visual pipeline's proof data on core `c`: the arrays as the region finds them; after the body each input's buffer at
    its block, the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's position decides the case; the invariant hands
    the body the accumulator (at anything at the first point, at what the point before left afterwards) and takes it back at
    this point's contents; before the last point the output window's buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 9 := N1_lt t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 9 = 8
  · have h0 : ¬t.val % 9 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨⟨Ha, Hb, Hc, Hd, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ha Hb Hc Hd HS0 Hg]
    · isplitl [Ha Hb Hc Hd HS0]
      · isplitl [Ha]; · iexact Ha
        isplitl [Hb]; · iexact Hb
        isplitl [Hc]; · iexact Hc
        isplitl [Hd]; · iexact Hd
        unfold owns; iexists _; isplitr
        swap; · iexact HS0
        ipureintro; exact View.read_writes_of_cover _ _ _ _ _ (scover1_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 9 = 0
    · have hz : t.val = 0 := by omega
      rw [outsAt1_A V c t h0 h1]
      unfold sout1_A_0; (try dsimp only)
      rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt1_B V c t h0 h1]
      unfold sout1_B_0; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end

end Cert.KernelIdeal.Fr

end
-- ==== Proof.KI.Main.lean ====
/-
  The whole run of the program, read as values. @main is: the host operations that build the operands, the audio
  region, the visual region, then the host operations of the loss. Between two items every unscoped buffer is held at a
  named valuation: after the audio region its result array holds what the pipeline's write-backs leave (the proof data's
  last array contents), after the visual region likewise, every other buffer as before; the host stretches are the
  library's host segments over the generated valuations. Each region is entered from the valuation before it and left at
  the one after it; the accumulator's named contents are forgotten at the visual region's exit. The launch theorem for a
  list of segments then gives: every weakly fair execution terminates and every unscoped buffer ends at the last
  valuation — from which the frame claim (the arguments unchanged) and the result's value are both read.
-/
import proofs.«157482_j24283745091878_1_alg».proof.Proof.KI.Reg0
import proofs.«157482_j24283745091878_1_alg».proof.Proof.KI.Reg1
import proofs.«157482_j24283745091878_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations -/

/-- The buffers when the audio region is entered, read at the TensorCore's references. -/
abbrev EV1 : (c : Dev nD) → (b : Ref sig .tc) → Buf (Elt F) ((c : Thread nD τ).loc b) := fun c b => V1 m c b
/-- What the audio region leaves in its result array. -/
def X0 (c : Dev nD) : Buf (Elt F) ((c : Thread nD τ).loc main_v11) := (dat0 (EV1 m) c).arrAt 2 cfg0.N
/-- The buffers after the audio region. -/
def W2 (c : Dev nD) : Valuation τ sig (Elt F) := Function.update (V1 m c) main_v11 (X0 m c)
abbrev EV2 : (c : Dev nD) → (b : Ref sig .tc) → Buf (Elt F) ((c : Thread nD τ).loc b) := fun c b => W2 m c b
/-- What the visual region leaves in its result array. -/
def X1 (c : Dev nD) : Buf (Elt F) ((c : Thread nD τ).loc main_v12) := (dat1 (EV2 m) c).arrAt 2 cfg1.N
/-- The buffers after the visual region. -/
def W3 (c : Dev nD) : Valuation τ sig (Elt F) := Function.update (W2 m c) main_v12 (X1 m c)
abbrev EV3 : (c : Dev nD) → (b : Ref sig .tc) → Buf (Elt F) ((c : Thread nD τ).loc b) := fun c b => W3 m c b

/-- The regions' results, as the generated valuations take them. -/
def outsOf : Outs (F := F) := fun J r c => if J = 2 then W2 m c r else W3 m c r

theorem W2_self (c : Dev nD) : W2 m c main_v11 = X0 m c := by
  unfold W2; simp only [Function.update_self]
theorem W3_self (c : Dev nD) : W3 m c main_v12 = X1 m c := by
  unfold W3; simp only [Function.update_self]
theorem V2_eq (c : Dev nD) : V2 m (outsOf m) c = W2 m c := by
  unfold V2 outsOf
  simp only [if_true]
  rw [W2_self]; rfl
theorem V3_eq (c : Dev nD) : V3 m (outsOf m) c = W3 m c := by
  unfold V3
  rw [V2_eq]
  unfold outsOf
  simp only [show ¬ (3 : ℕ) = 2 from by decide, if_false]
  rw [W3_self]; rfl

theorem W2_of (c : Dev nD) (r : Ref sig .tc) (h : r ∉ ([main_v11] : List (Ref sig .tc))) : W2 m c r = V1 m c r := by
  simp only [W2, Function.update_of_ne (StableHlo.devRef_ne_of_ne (List.ne_of_not_mem_cons h) : (Proc.devRef .tc r : DevRef τ sig) ≠ Proc.devRef .tc main_v11)]
theorem W3_of (c : Dev nD) (r : Ref sig .tc) (h : r ∉ ([main_v12] : List (Ref sig .tc))) : W3 m c r = W2 m c r := by
  simp only [W3, Function.update_of_ne (StableHlo.devRef_ne_of_ne (List.ne_of_not_mem_cons h) : (Proc.devRef .tc r : DevRef τ sig) ≠ Proc.devRef .tc main_v12)]

/-- At the audio region's exit each of its arrays holds what the pipeline leaves, -/
theorem hF0 (c : Dev nD) (w : Fin cfg0.W) : (dat0 (EV1 m) c).arrAt w cfg0.N = EV2 m c (Pipeline.arrRef spec0 w) :=
  match w with
  | ⟨0, _⟩ => (((dat0 (EV1 m) c).arrAt_in 0 rfl _).trans (A_eq0 (EV1 m) c 0)).trans (W2_of m c main_v6 (by decide)).symm
  | ⟨1, _⟩ => (((dat0 (EV1 m) c).arrAt_in 1 rfl _).trans (A_eq0 (EV1 m) c 1)).trans (W2_of m c main_v9 (by decide)).symm
  | ⟨2, _⟩ => by show X0 m c = W2 m c main_v11; unfold W2; simp only [Function.update_self]
/-- and every other buffer what it held at entry. -/
theorem hrest0 (c : Dev nD) : ∀ b, b ∉ Finset.univ.image (Pipeline.arrRef spec0) → EV2 m c b = EV1 m c b :=
  fun b hb => W2_of m c b (by
    intro hm
    exact hb (Finset.mem_image.mpr ⟨2, Finset.mem_univ _, (List.mem_singleton.mp hm).symm⟩))

theorem hF1 (c : Dev nD) (w : Fin cfg1.W) : (dat1 (EV2 m) c).arrAt w cfg1.N = EV3 m c (Pipeline.arrRef spec1 w) :=
  match w with
  | ⟨0, _⟩ => (((dat1 (EV2 m) c).arrAt_in 0 rfl _).trans (A_eq1 (EV2 m) c 0)).trans (W3_of m c main_v8 (by decide)).symm
  | ⟨1, _⟩ => (((dat1 (EV2 m) c).arrAt_in 1 rfl _).trans (A_eq1 (EV2 m) c 1)).trans (W3_of m c main_v10 (by decide)).symm
  | ⟨2, _⟩ => by show X1 m c = W3 m c main_v12; unfold W3; simp only [Function.update_self]
theorem hrest1 (c : Dev nD) : ∀ b, b ∉ Finset.univ.image (Pipeline.arrRef spec1) → EV3 m c b = EV2 m c b :=
  fun b hb => W3_of m c b (by
    intro hm
    exact hb (Finset.mem_image.mpr ⟨2, Finset.mem_univ _, (List.mem_singleton.mp hm).symm⟩))

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (EV1 m) c
  | ⟨1, _⟩ => fun c => dat1 (EV2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- The audio region: entered from every unscoped buffer at the first host stretch's results, left with its result
    array at what the pipeline leaves. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EV1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (EV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EV1 m c) (EV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The visual region: entered from the buffers after the audio region, left with its result array at what the
    pipeline leaves; the accumulator's named contents go back into "some contents" at the exit. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EV2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (EV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ (Pipeline.ΦA spec1 c : sProp 𝕄) := by
      unfold Pipeline.ΦA
      iintro ⟨Hp, -, Hr⟩
      isplitl [Hr]; · iexact Hr
      iexact Hp
    exact h1.trans (hin1 (EV2 m) c)
  hout c := by
    rw [Pipeline.ownSems0_none]
    have h2 : (Pipeline.ΦA spec1 c : sProp 𝕄) ⊢ (iprop((∃ r, prngReg c r) ∗ emp ∗ Pipeline.scopedRest spec1 c) : sProp 𝕄) := by
      unfold Pipeline.ΦA
      iintro ⟨Hr, Hp⟩
      isplitl [Hp]; · iexact Hp
      isplitr; · iempintro
      iexact Hr
    exact (hout1 (EV2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EV2 m c) (EV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The rest state beside the buffers, the same at every item. -/
abbrev Er : Fin 3 → Dev nD → sProp 𝕄 := fun _ c => Rr c

set_option backward.isDefEq.respectTransparency.types false in
/-- Every weakly fair execution of @main from memory `m` with zero counters terminates, and in every final state every
    unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outsOf m) c b) := by
  refine Pipeline.θ_run_regions_kit_dev (pcfgs (F := F)) adm (pdats m) () cellOf_inj emb₁ defs₀ 𝒱₀ L lv m ρ main
    (segs m (outsOf m) 𝒱₀ L lv Er () (pdats m) (reg0 m) (reg1 m))
    (fun c Q => by
      rewrite [main_chain c, Seg.run_eq_chain,
        show (segs m (outsOf m) 𝒱₀ L lv Er () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V7 m (outsOf m) c))
    (hch := fun c => ⟨.rfl, .rfl, .rfl,
      (show (iprop(StableHlo.held (c : Thread nD τ) (Pipeline.ucRefs τ sig) (W3 m c) ∗ Rr c) : sProp 𝕄)
          ⊢ iprop(StableHlo.held (c : Thread nD τ) (Pipeline.ucRefs τ sig) (V3 m (outsOf m) c) ∗ Rr c) from by rw [V3_eq]),
      .rfl, .rfl, .rfl,
      sep_mono .rfl (by iintro ⟨-, HO⟩; iexact HO)⟩)
    (hinit := ?_)
    (QY := fun c s => ∀ b ∈ Pipeline.ucRefs τ sig, s.mem (((c : Thread nD τ)).1, b) = V7 m (outsOf m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V7 m (outsOf m) c) s')
    isplitl [Hh] <;> iassumption

end Cert.KernelIdeal.Fr

end
-- ==== Proof.KI.Pieces.lean ====
/-
  What the bodies' stores leave, as the kernels' own arithmetic: at every point the accumulator ends holding the
  previous accumulator (zero at the first point) plus the product of the point's two blocks, and at the last point the
  output window's buffer ends holding the accumulator.
  Each body loads and stores whole arrays only, so what its stores leave in a buffer is the payload of the last store
  into it, and a load of the accumulator made after a store reads that store's payload: at the first point the
  update is computed from the zeros just stored, at a later point from what the point before left, and the copy to the
  output window at the last point carries the updated accumulator.
-/
import proofs.«157482_j24283745091878_1_alg».proof.Proof.KI.Reg0
import proofs.«157482_j24283745091878_1_alg».proof.Proof.KI.Reg1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a 2-d rectangle, however spelt. -/
private theorem hz2 : (![0, 0] : Fin 2 → Nat) = fun _ => 0 := funext fun a => by fin_cases a <;> rfl

/-- A load of the whole array, after stores of which the LAST wrote the whole array, reads that last store's payload,
    whatever the earlier stores were. -/
private theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The visual kernel's first point: zeros are stored, read back, and the first block product is added to them. -/
theorem sout1_A_0_eq (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : cond1_0 i) (hc1 : ¬cond1_1 i) (x0 : Vec F S512x7680 .bf16) (x1 : Vec F S7680x512 .bf16) :
    sout1_A_0 c i arg1 harg1 arg2 harg2 arg3 harg3 arg4 harg4 hc0 hc1 x0 x1 = k1_pay2 (F := F) (k1_pay1 (F := F)) x0 x1 := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  -- two stores of the whole accumulator: the later one is what is left
  rw [View.canon_cons_unit_zero (S := S512x512) hz2]
  simp only [View.readAt_eq_ld, harg1.read_unread, harg2.read_unread, harg4.read_unread,
    readCov_cons_unit_zero (S := S512x512) _ hz2, View.readCov_unit_zero (S := S512x512) _ hz2,
    View.ld_unit_zero (S := S512x512) hz2, View.ld_unit_zero (S := S512x7680) hz2, View.ld_unit_zero (S := S7680x512) hz2]

/-- A middle point: the block product is added to what the point before left. -/
theorem sout1_B_0_eq (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : ¬cond1_1 i) (x0 : Vec F S512x7680 .bf16) (x1 : Vec F S7680x512 .bf16) (xs0 : Vec F S512x512 .f32) :
    sout1_B_0 c i arg1 harg1 arg2 harg2 arg3 harg3 arg4 harg4 hc0 hc1 x0 x1 xs0 = k1_pay2 (F := F) xs0 x0 x1 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero hz2]
  simp only [View.readAt_eq_ld, harg1.read_unread, harg2.read_unread, harg4.read_unread,
    readCov_cons_unit_zero (S := S512x512) _ hz2, View.readCov_unit_zero (S := S512x512) _ hz2,
    View.ld_unit_zero (S := S512x512) hz2, View.ld_unit_zero (S := S512x7680) hz2, View.ld_unit_zero (S := S7680x512) hz2]

/-- The last point leaves the same update in the accumulator, -/
theorem sout1_C_0_eq (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) :
    sout1_C_0 c i arg1 harg1 arg2 harg2 arg3 harg3 arg4 harg4 hc0 hc1 x0 x1 xs0 = k1_pay2 (F := F) xs0 x0 x1 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero hz2]
  simp only [View.readAt_eq_ld, harg1.read_unread, harg2.read_unread, harg4.read_unread,
    readCov_cons_unit_zero (S := S512x512) _ hz2, View.readCov_unit_zero (S := S512x512) _ hz2,
    View.ld_unit_zero (S := S512x512) hz2, View.ld_unit_zero (S := S512x7680) hz2, View.ld_unit_zero (S := S7680x512) hz2]

/-- and copies it to the output window: the copy's payload is the accumulator read back after the update. -/
theorem out1_C_2_eq (c : Dev nD) (i : grid1.Coords) (arg1 : Memref sig .tc .vmem S512x7680 .bf16) (harg1 : arg1.IsWhole) (arg2 : Memref sig .tc .vmem S7680x512 .bf16) (harg2 : arg2.IsWhole) (arg3 : Memref sig .tc .vmem S512x512 .f32) (harg3 : arg3.IsWhole) (arg4 : Memref sig .tc .vmem S512x512 .f32) (harg4 : arg4.IsWhole) (hc0 : ¬cond1_0 i) (hc1 : cond1_1 i) (x0 : Vec F S512x7680 .bf16) (x1 : Vec F S7680x512 .bf16) (xs0 : Vec F S512x512 .f32) :
    out1_C_2 c i arg1 harg1 arg2 harg2 arg3 harg3 arg4 harg4 hc0 hc1 x0 x1 xs0 = k1_pay2 (F := F) xs0 x0 x1 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero hz2]
  simp only [View.readAt_eq_ld, harg1.read_unread, harg2.read_unread, harg4.read_unread,
    readCov_cons_unit_zero (S := S512x512) _ hz2, View.readCov_unit_zero (S := S512x512) _ hz2,
    View.ld_unit_zero (S := S512x512) hz2, View.ld_unit_zero (S := S512x7680) hz2, View.ld_unit_zero (S := S7680x512) hz2]

/-- The audio kernel's one point is first and last at once: zeros are stored and read back, the product is added
    and stored, and the accumulator read back after these two stores is copied to the output window. -/
theorem out0_2_eq (c : Dev nD) (i : grid0.Coords) (arg1 : Memref sig .tc .vmem S512x1280 .bf16) (harg1 : arg1.IsWhole) (arg2 : Memref sig .tc .vmem S1280x512 .bf16) (harg2 : arg2.IsWhole) (arg3 : Memref sig .tc .vmem S512x512 .f32) (harg3 : arg3.IsWhole) (arg4 : Memref sig .tc .vmem S512x512 .f32) (harg4 : arg4.IsWhole) (hc0 : cond0_0 i) (hc1 : cond0_1 i) (x0 : Vec F S512x1280 .bf16) (x1 : Vec F S1280x512 .bf16) :
    out0_2 c i arg1 harg1 arg2 harg2 arg3 harg3 arg4 harg4 hc0 hc1 x0 x1 = k0_pay2 (F := F) (k0_pay1 (F := F)) x0 x1 := by
  unfold out0_2
  rw [View.read_writes_eq_canon _ _ _ (cover0_2 c i arg1 harg1 arg2 harg2 arg3 harg3 arg4 harg4 hc0 hc1 x0 x1)]
  unfold kernelRun0
  dsimp only
  sl_unfold_words
  rw [View.canon_unit_zero hz2]
  simp only [View.readAt_eq_ld, harg1.read_unread, harg2.read_unread,
    readCov_cons_unit_zero (S := S512x512) _ hz2, View.readCov_unit_zero (S := S512x512) _ hz2,
    View.ld_unit_zero (S := S512x1280) hz2, View.ld_unit_zero (S := S1280x512) hz2]

end Cert.KernelIdeal.Fr

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.MatBridge.lean ====
/-
  The accumulated block products are the whole product.

  One grid point's payload, read at an output index (i, j), is the accumulator's entry plus the block's own
  contraction sum over its 7680 columns/rows. Starting from the zero accumulator, the entry after point n is
  therefore the sum over the blocks 0 … n of their contraction sums (extended reals under addition are a commutative
  monoid, so infinities need no care). After the ninth point that is a double sum over (t, q) in 9 × 7680, and the
  bijection (t, q) ↦ 7680·t + q onto the 69120 contraction indices turns it into the whole contraction sum.
-/
import proofs.«157482_j24283745091878_1_alg».proof.Proof.Gen.KernelIdeal.Skeleton
import proofs.«157482_j24283745091878_1_alg».proof.Proof.LibPlainDot
import Idealize.ShloMosaic.Lib.ValueIdx
import Idealize.ShloMosaic.Lib.Pipeline.Value
import Idealize.ShloMosaic.PureOps.Ideal.Laws

noncomputable section

namespace Cert.KernelIdeal.Mat

open Cert.KernelIdeal Cert.KernelIdeal.Gen Idealize.ShloMosaic Idealize.ShloMosaic.ValueIdx Idealize.SL.Sem

variable [Cert.KernelIdeal.Facts]

/-- Columns 7680·t … 7680·t + 7679 of the left operand. -/
def xblk (X : Vec Ideal S512x69120 .bf16) (t : Fin 9) : Vec Ideal S512x7680 .bf16 :=
  fun y => X (ix2 (⟨(y 0).val, (y 0).isLt⟩ : Fin 512) (⟨t.val * 7680 + (y 1).val, by have := (y 1).isLt; have := t.isLt; show _ < 69120; simp only [Matrix.cons_val_one, Matrix.cons_val_zero] at *; omega⟩ : Fin 69120))

/-- Rows 7680·t … 7680·t + 7679 of the right operand. -/
def wblk (W : Vec Ideal S69120x512 .bf16) (t : Fin 9) : Vec Ideal S7680x512 .bf16 :=
  fun y => W (ix2 (⟨t.val * 7680 + (y 0).val, by have := (y 0).isLt; have := t.isLt; show _ < 69120; simp only [Matrix.cons_val_one, Matrix.cons_val_zero] at *; omega⟩ : Fin 69120) (⟨(y 1).val, (y 1).isLt⟩ : Fin 512))

/-- The accumulator after grid point n: it is reset to zero at point 0, and every point adds its block's product. -/
def accAt (X : Vec Ideal S512x69120 .bf16) (W : Vec Ideal S69120x512 .bf16) : ℕ → Vec Ideal S512x512 .f32
  | 0 => k1_pay2 (F := Ideal) (k1_pay1 (F := Ideal)) (xblk X 0) (wblk W 0)
  | n + 1 => if h : n + 1 < 9 then k1_pay2 (F := Ideal) (accAt X W n) (xblk X ⟨n + 1, h⟩) (wblk W ⟨n + 1, h⟩) else accAt X W n

/-- One block's step at an output index: the accumulator's entry plus the block's contraction sum. -/
theorem pay2_apply (A : Vec Ideal S512x512 .f32) (x : Vec Ideal S512x7680 .bf16) (w : Vec Ideal S7680x512 .bf16)
    (i : S512x512.Idx) :
    k1_pay2 (F := Ideal) A x w i = A i + ∑ q : Fin 7680, x (ix2 (i 0) q) * w (ix2 q (i 1)) := by
  unfold k1_pay2
  simp only [shapeCast_self]
  rw [addf_apply]
  congr 1
  exact Idealize.ShloMosaic.PlainDot.matmul_zero_apply 512 7680 512 none x w i

/-- The initial accumulator is zero at every index. -/
theorem pay1_apply (i : S512x512.Idx) : k1_pay1 (F := Ideal) i = 0 := by
  unfold k1_pay1
  simp only [shapeCast_self]
  rw [broadcast_apply]
  exact Ideal.ofBits_zero_f32

/-- Block t's contraction sum at the output index i, written over the whole operands; zero past the ninth block. -/
def blockSum (X : Vec Ideal S512x69120 .bf16) (W : Vec Ideal S69120x512 .bf16) (i : S512x512.Idx) (t : ℕ) : Ideal .f32 :=
  if h : t < 9 then ∑ q : Fin 7680, xblk X ⟨t, h⟩ (ix2 (i 0) q) * wblk W ⟨t, h⟩ (ix2 q (i 1)) else 0

/-- The accumulator after point n (n ≤ 8) is the sum of the block sums 0 … n. -/
theorem accAt_eq_sum (X : Vec Ideal S512x69120 .bf16) (W : Vec Ideal S69120x512 .bf16) (i : S512x512.Idx) :
    ∀ n : ℕ, n < 9 → accAt X W n i = ∑ t ∈ Finset.range (n + 1), blockSum X W i t
  | 0, _ => by
    rw [Finset.sum_range_one]
    show k1_pay2 (F := Ideal) (k1_pay1 (F := Ideal)) (xblk X 0) (wblk W 0) i = _
    rw [pay2_apply, pay1_apply, zero_add, blockSum, dif_pos (by norm_num : (0 : ℕ) < 9)]
    rfl
  | n + 1, hn => by
    have ih := accAt_eq_sum X W i n (by omega)
    rw [Finset.sum_range_succ, ← ih]
    show (if h : n + 1 < 9 then k1_pay2 (F := Ideal) (accAt X W n) (xblk X ⟨n + 1, h⟩) (wblk W ⟨n + 1, h⟩) else accAt X W n) i = _
    rw [dif_pos hn, pay2_apply, blockSum, dif_pos hn]

/-- The 69120 contraction indices are the pairs (block, offset): k = 7680·t + q. -/
def splitK : Fin 9 × Fin 7680 ≃ Fin 69120 := finProdFinEquiv

/-- The pair (t, q) names the contraction index 7680·t + q. -/
theorem splitK_val (t : Fin 9) (q : Fin 7680) : (splitK (t, q)).val = t.val * 7680 + q.val := by
  show q.val + 7680 * t.val = _
  omega

/-- After the ninth point the accumulator holds the whole contraction. -/
theorem accAt_last (X : Vec Ideal S512x69120 .bf16) (W : Vec Ideal S69120x512 .bf16) (i : S512x512.Idx) :
    accAt X W 8 i = ∑ k : Fin 69120, X (ix2 (⟨(i 0).val, (i 0).isLt⟩ : Fin 512) k) * W (ix2 k (⟨(i 1).val, (i 1).isLt⟩ : Fin 512)) := by
  rw [accAt_eq_sum X W i 8 (by norm_num), Finset.sum_range (fun t => blockSum X W i t),
    ← Equiv.sum_comp splitK, Fintype.sum_prod_type]
  refine Finset.sum_congr rfl fun t _ => ?_
  rw [blockSum, dif_pos t.isLt]
  refine Finset.sum_congr rfl fun q _ => ?_
  have hk : (splitK (t, q)) = (⟨t.val * 7680 + q.val, by have := t.isLt; have := q.isLt; omega⟩ : Fin 69120) :=
    Fin.ext (splitK_val t q)
  rw [hk]
  rfl

/-- The one-block step at an output index: the accumulator's entry plus the contraction sum over 1280. -/
theorem pay2_apply0 (A : Vec Ideal S512x512 .f32) (x : Vec Ideal S512x1280 .bf16) (w : Vec Ideal S1280x512 .bf16)
    (i : S512x512.Idx) :
    k0_pay2 (F := Ideal) A x w i = A i + ∑ q : Fin 1280, x (ix2 (i 0) q) * w (ix2 q (i 1)) := by
  unfold k0_pay2
  simp only [shapeCast_self]
  rw [addf_apply]
  congr 1
  exact Idealize.ShloMosaic.PlainDot.matmul_zero_apply 512 1280 512 none x w i

/-- The one-block product's initial accumulator is zero at every index. -/
theorem pay1_apply0 (i : S512x512.Idx) : k0_pay1 (F := Ideal) i = 0 := by
  unfold k0_pay1
  simp only [shapeCast_self]
  rw [broadcast_apply]
  exact Ideal.ofBits_zero_f32

/-- The one-point product: zero plus the whole contraction. -/
theorem single (X : Vec Ideal S512x1280 .bf16) (W : Vec Ideal S1280x512 .bf16) (i : S512x512.Idx) :
    k0_pay2 (F := Ideal) (k0_pay1 (F := Ideal)) X W i
      = ∑ k : Fin 1280, X (ix2 (⟨(i 0).val, (i 0).isLt⟩ : Fin 512) k) * W (ix2 k (⟨(i 1).val, (i 1).isLt⟩ : Fin 512)) := by
  rw [pay2_apply0, pay1_apply0, zero_add]
  rfl

end Cert.KernelIdeal.Mat

end
-- ==== Proof.KI.Blocks.lean ====
/-
  The windows' blocks and the regions' results as plain functions of the arrays the regions find. The visual product's
  left window at point t is columns 7680·t … 7680·t + 7679 of its array and its right window rows 7680·t … of its
  array; the audio product's windows are their whole arrays. Each output window is one block, the whole result array,
  written back once (after the last point), so the result array ends holding what the last point left in the window.

  A block's coordinate on an axis is (block index) × (block size) + (coordinate inside the block); the block indices are
  decided once over each grid, and the rest is linear arithmetic. The result array after the run is the entry contents
  overwritten by every written-back block; the one written-back block covers every index, so nothing of the entry
  contents is left.
-/
import proofs.«157482_j24283745091878_1_alg».proof.Proof.KI.Reg0
import proofs.«157482_j24283745091878_1_alg».proof.Proof.KI.Reg1
import proofs.«157482_j24283745091878_1_alg».proof.Proof.MatBridge
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section
variable (V : (c : Dev nD) → (b : Ref sig .tc) → Buf (Elt Ideal) ((c : Thread nD τ).loc b))

/-- The visual product's index maps over its grid: the left window moves along the columns, the right window along the
    rows, the output window stays. -/
theorem idx1 : ∀ t : Fin cfg1.N, win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The audio product's index maps at its one point: every window sits at the origin. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem iblk1_0_eq (c : Dev nD) (t : Fin cfg1.N) :
    (iblk1 V c 0 t : Vec Ideal S512x7680 .bf16) = Mat.xblk (V c main_v8) ⟨t.val, N1_lt t.isLt⟩ := by
  obtain ⟨e0, e1, -⟩ := idx1 t
  funext y
  show V c main_v8 (((cfg1.win 0).blk t).view.emb y) = V c main_v8 _
  refine congrArg _ ?_
  funext a; apply Fin.ext
  match a with
  | ⟨0, _⟩ => show win1_0.index t (0 : Fin 2) * 512 + 1 * (y 0).val = (y 0).val; omega
  | ⟨1, _⟩ => show win1_0.index t (1 : Fin 2) * 7680 + 1 * (y 1).val = t.val * 7680 + (y 1).val; omega

theorem iblk1_1_eq (c : Dev nD) (t : Fin cfg1.N) :
    (iblk1 V c 1 t : Vec Ideal S7680x512 .bf16) = Mat.wblk (V c main_v10) ⟨t.val, N1_lt t.isLt⟩ := by
  obtain ⟨-, -, e0, e1, -⟩ := idx1 t
  funext y
  show V c main_v10 (((cfg1.win 1).blk t).view.emb y) = V c main_v10 _
  refine congrArg _ ?_
  funext a; apply Fin.ext
  match a with
  | ⟨0, _⟩ => show win1_1.index t (0 : Fin 2) * 7680 + 1 * (y 0).val = t.val * 7680 + (y 0).val; omega
  | ⟨1, _⟩ => show win1_1.index t (1 : Fin 2) * 512 + 1 * (y 1).val = (y 1).val; omega

theorem iblk0_0_eq (c : Dev nD) (t : Fin cfg0.N) :
    (iblk0 V c 0 t : Vec Ideal S512x1280 .bf16) = V c main_v6 := by
  obtain ⟨e0, e1, -⟩ := idx0 t
  funext y
  show V c main_v6 (((cfg0.win 0).blk t).view.emb y) = V c main_v6 y
  refine congrArg _ ?_
  funext a; apply Fin.ext
  match a with
  | ⟨0, _⟩ => show win0_0.index t (0 : Fin 2) * 512 + 1 * (y 0).val = (y 0).val; omega
  | ⟨1, _⟩ => show win0_0.index t (1 : Fin 2) * 1280 + 1 * (y 1).val = (y 1).val; omega

theorem iblk0_1_eq (c : Dev nD) (t : Fin cfg0.N) :
    (iblk0 V c 1 t : Vec Ideal S1280x512 .bf16) = V c main_v9 := by
  obtain ⟨-, -, e0, e1, -⟩ := idx0 t
  funext y
  show V c main_v9 (((cfg0.win 1).blk t).view.emb y) = V c main_v9 y
  refine congrArg _ ?_
  funext a; apply Fin.ext
  match a with
  | ⟨0, _⟩ => show win0_1.index t (0 : Fin 2) * 1280 + 1 * (y 0).val = (y 0).val; omega
  | ⟨1, _⟩ => show win0_1.index t (1 : Fin 2) * 512 + 1 * (y 1).val = (y 1).val; omega

/-- An index of the visual result array is in point t's output block iff each coordinate is in the block's range. -/
theorem mem_blk1_2 (t : Fin cfg1.N) (i : S512x512.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v12).slice (win1_2.rect t)).set ↔ _
  rw [View.set_slice_whole, Rect.mem_set_unit]
  exact Iff.rfl

/-- The same for the audio result array. -/
theorem mem_blk0_2 (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v11).slice (win0_2.rect t)).set ↔ _
  rw [View.set_slice_whole, Rect.mem_set_unit]
  exact Iff.rfl

/-- Writing back the visual output window's one block, which is the whole array, writes the window's contents as they
    are: the block's index inside the array is the index itself. -/
theorem cut_eq_read1 (t : Fin cfg1.N) (X : Vec Ideal S512x512 .f32) :
    (cfg1.win 2).cut (grid1.coords t) X = ((cfg1.win 2).blk t).view.read (Elt Ideal) X := by
  obtain ⟨-, -, -, -, e4, e5⟩ := idx1 t
  funext j
  show X ((cfg1.win 2).xinj _ j) = X (((cfg1.win 2).blk t).view.emb j)
  refine congrArg _ ?_
  funext a; apply Fin.ext
  match a with
  | ⟨0, _⟩ => show (j 0).val = win1_2.index t (0 : Fin 2) * 512 + 1 * (j 0).val; omega
  | ⟨1, _⟩ => show (j 1).val = win1_2.index t (1 : Fin 2) * 512 + 1 * (j 1).val; omega

/-- Every index of the visual result array is in the output window's block, at every point. -/
theorem cover1 (t : Fin cfg1.N) (i : S512x512.Idx) : i ∈ ((cfg1.win 2).blk t).view.set := by
  obtain ⟨-, -, -, -, e4, e5⟩ := idx1 t
  rw [mem_blk1_2]
  intro a
  have hi0 : (i 0).val < 512 := (i 0).isLt
  have hi1 : (i 1).val < 512 := (i 1).isLt
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- The visual result array ends holding whatever the ninth point left in the output window. -/
theorem arrAt1_of (c : Dev nD) (G : Vec Ideal S512x512 .f32) (h8 : 8 < cfg1.N) (hG : (dat1 V c).after 2 ⟨8, h8⟩ = G) :
    ((dat1 V c).arrAt 2 cfg1.N : Vec Ideal S512x512 .f32) = G := by
  refine (dat1 V c).arrAt_eq_of_cover 2 G (fun t hf => ?_) (fun i => ⟨⟨8, h8⟩, (flush1_2 _).mpr rfl, cover1 _ i⟩)
  have ht : t = ⟨8, h8⟩ := Fin.ext (by
    have h := (flush1_2 t).mp hf
    have := N1_lt t.isLt
    show t.val = 8
    omega)
  subst ht
  show (cfg1.win 2).cut (grid1.coords ⟨8, h8⟩) ((dat1 V c).after 2 ⟨8, h8⟩) = _
  rw [hG]
  exact cut_eq_read1 _ G

/-- The visual region's result array ends holding what the ninth point left in the output window. -/
theorem arrAt1_out (c : Dev nD) :
    ((dat1 V c).arrAt 2 cfg1.N : Vec Ideal S512x512 .f32) = (outsAt1 V c 8 (by rw [show cfg1.N = 9 from N_1]; decide)).1 :=
  arrAt1_of V c _ _ (after1_2 V c ⟨8, by rw [show cfg1.N = 9 from N_1]; decide⟩)

/-- Writing back the audio output window's one block writes the window's contents as they are. -/
theorem cut_eq_read0 (t : Fin cfg0.N) (X : Vec Ideal S512x512 .f32) :
    (cfg0.win 2).cut (grid0.coords t) X = ((cfg0.win 2).blk t).view.read (Elt Ideal) X := by
  obtain ⟨-, -, -, -, e4, e5⟩ := idx0 t
  funext j
  show X ((cfg0.win 2).xinj _ j) = X (((cfg0.win 2).blk t).view.emb j)
  refine congrArg _ ?_
  funext a; apply Fin.ext
  match a with
  | ⟨0, _⟩ => show (j 0).val = win0_2.index t (0 : Fin 2) * 512 + 1 * (j 0).val; omega
  | ⟨1, _⟩ => show (j 1).val = win0_2.index t (1 : Fin 2) * 512 + 1 * (j 1).val; omega

/-- Every index of the audio result array is in the output window's block. -/
theorem cover0 (t : Fin cfg0.N) (i : S512x512.Idx) : i ∈ ((cfg0.win 2).blk t).view.set := by
  obtain ⟨-, -, -, -, e4, e5⟩ := idx0 t
  rw [mem_blk0_2]
  intro a
  have hi0 : (i 0).val < 512 := (i 0).isLt
  have hi1 : (i 1).val < 512 := (i 1).isLt
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The audio region's result array ends holding what its one point left in the output window. -/
theorem arrAt0_out (c : Dev nD) :
    ((dat0 V c).arrAt 2 cfg0.N : Vec Ideal S512x512 .f32) = (dat0 V c).after 2 t0_0 := by
  refine (dat0 V c).arrAt_eq_of_cover 2 _ (fun t hf => ?_) (fun i => ⟨t0_0, flush0_2 _, cover0 _ i⟩)
  have ht : t = t0_0 := fin_N0 t
  subst ht
  exact cut_eq_read0 _ _

end

end Cert.KernelIdeal.Fr

end
-- ==== Proof.TailFn.lean ====
/-
  What the program computes after its two matrix products, as ONE function of the two 512x512 embedding arrays,
  a (audio) and v (visual): each array's rows are divided by max(‖row‖₂, 1e-12); with a₁, a₂ the upper and lower 256 rows
  of the normalised a and v₁, v₂ those of the normalised v, row r contributes
  log((e^{a₁·v₁} + e^{a₁·v₂} + e^{a₂·v₁} + e^{a₂·v₂} + e^{a₁·a₂} + e^{v₁·v₂}) / Σ_j (e^{a₁·v_j} + e^{a₂·v_j})),
  and the result is minus the mean of the 256 contributions. One let per operation, in program order.
-/
import proofs.«157482_j24283745091878_1_alg».proof.KernelIdeal

noncomputable section

namespace Cert.KernelIdeal.Tail

open Cert.KernelIdeal Idealize.ShloMosaic Idealize.SL.Sem
open Cert.KernelIdeal.Facts₀ Cert.KernelIdeal.Facts

variable {F : FTy → Type} [FloatOps F] [Cert.KernelIdeal.Facts]

/-- The loss as a function of the audio embeddings and the visual embeddings. -/
def tailFn (t_main_v11 t_main_v12 : (⟨S512x512, .f32⟩ : BufTy).Contents (Elt F)) : (⟨S_, .f32⟩ : BufTy).Contents (Elt F) :=
  let t_main_call0_v0 : (⟨S512x512, .f32⟩ : BufTy).Contents (Elt F) := (mulf) t_main_v11 t_main_v11
  let t_main_call0_cst : (⟨S_, .f32⟩ : BufTy).Contents (Elt F) := (constant S_ .f32 0x00000000#32)
  let t_main_call0_v1 : (⟨S512, .f32⟩ : BufTy).Contents (Elt F) := (fun x v => Host.reduceAdd x v reducesTo_S512x512_S512_d1 h_S_) t_main_call0_v0 t_main_call0_cst
  let t_main_call0_v2 : (⟨S512x1, .f32⟩ : BufTy).Contents (Elt F) := (broadcastInDim S512x1 ![0] bcast_S512_S512x1_0) t_main_call0_v1
  let t_main_v13 : (⟨S512x1, .f32⟩ : BufTy).Contents (Elt F) := (Host.sqrt) t_main_call0_v2
  let t_main_cst : (⟨S_, .f32⟩ : BufTy).Contents (Elt F) := (constant S_ .f32 0x2B8CBCCC#32)
  let t_main_v14 := (broadcastInDim S512x1 ![] bcast_S_S512x1 : (⟨S_, .f32⟩ : BufTy).Contents (Elt F) → (⟨S512x1, .f32⟩ : BufTy).Contents (Elt F)) t_main_cst
  let t_main_v15 := (maximumf : (⟨S512x1, .f32⟩ : BufTy).Contents (Elt F) → (⟨S512x1, .f32⟩ : BufTy).Contents (Elt F) → (⟨S512x1, .f32⟩ : BufTy).Contents (Elt F)) t_main_v13 t_main_v14
  let t_main_v16 := (broadcastInDim S512x512 ![0, 1] bcast_S512x1_S512x512_0_1 : (⟨S512x1, .f32⟩ : BufTy).Contents (Elt F) → (⟨S512x512, .f32⟩ : BufTy).Contents (Elt F)) t_main_v15
  let t_main_v17 := (Host.divf : (⟨S512x512, .f32⟩ : BufTy).Contents (Elt F) → (⟨S512x512, .f32⟩ : BufTy).Contents (Elt F) → (⟨S512x512, .f32⟩ : BufTy).Contents (Elt F)) t_main_v11 t_main_v16
  let t_main_call1_v0 : (⟨S512x512, .f32⟩ : BufTy).Contents (Elt F) := (mulf) t_main_v12 t_main_v12
  let t_main_call1_cst : (⟨S_, .f32⟩ : BufTy).Contents (Elt F) := (constant S_ .f32 0x00000000#32)
  let t_main_call1_v1 : (⟨S512, .f32⟩ : BufTy).Contents (Elt F) := (fun x v => Host.reduceAdd x v reducesTo_S512x512_S512_d1 h_S_) t_main_call1_v0 t_main_call1_cst
  let t_main_call1_v2 : (⟨S512x1, .f32⟩ : BufTy).Contents (Elt F) := (broadcastInDim S512x1 ![0] bcast_S512_S512x1_0) t_main_call1_v1
  let t_main_v18 : (⟨S512x1, .f32⟩ : BufTy).Contents (Elt F) := (Host.sqrt) t_main_call1_v2
  let t_main_cst_0 : (⟨S_, .f32⟩ : BufTy).Contents (Elt F) := (constant S_ .f32 0x2B8CBCCC#32)
  let t_main_v19 := (broadcastInDim S512x1 ![] bcast_S_S512x1 : (⟨S_, .f32⟩ : BufTy).Contents (Elt F) → (⟨S512x1, .f32⟩ : BufTy).Contents (Elt F)) t_main_cst_0
  let t_main_v20 := (maximumf : (⟨S512x1, .f32⟩ : BufTy).Contents (Elt F) → (⟨S512x1, .f32⟩ : BufTy).Contents (Elt F) → (⟨S512x1, .f32⟩ : BufTy).Contents (Elt F)) t_main_v18 t_main_v19
  let t_main_v21 := (broadcastInDim S512x512 ![0, 1] bcast_S512x1_S512x512_0_1 : (⟨S512x1, .f32⟩ : BufTy).Contents (Elt F) → (⟨S512x512, .f32⟩ : BufTy).Contents (Elt F)) t_main_v20
  let t_main_v22 := (Host.divf : (⟨S512x512, .f32⟩ : BufTy).Contents (Elt F) → (⟨S512x512, .f32⟩ : BufTy).Contents (Elt F) → (⟨S512x512, .f32⟩ : BufTy).Contents (Elt F)) t_main_v12 t_main_v21
  let t_main_v23 := ((extractStridedSlice S256x512 ![0, 0] · slices_S512x512_S256x512_0_0) : (⟨S512x512, .f32⟩ : BufTy).Contents (Elt F) → (⟨S256x512, .f32⟩ : BufTy).Contents (Elt F)) t_main_v17
  let t_main_v24 := ((extractStridedSlice S256x512 ![256, 0] · slices_S512x512_S256x512_256_0) : (⟨S512x512, .f32⟩ : BufTy).Contents (Elt F) → (⟨S256x512, .f32⟩ : BufTy).Contents (Elt F)) t_main_v17
  let t_main_v25 := ((extractStridedSlice S256x512 ![0, 0] · slices_S512x512_S256x512_0_0) : (⟨S512x512, .f32⟩ : BufTy).Contents (Elt F) → (⟨S256x512, .f32⟩ : BufTy).Contents (Elt F)) t_main_v22
  let t_main_v26 := ((extractStridedSlice S256x512 ![256, 0] · slices_S512x512_S256x512_256_0) : (⟨S512x512, .f32⟩ : BufTy).Contents (Elt F) → (⟨S256x512, .f32⟩ : BufTy).Contents (Elt F)) t_main_v22
  let t_main_v27 := (mulf : (⟨S256x512, .f32⟩ : BufTy).Contents (Elt F) → (⟨S256x512, .f32⟩ : BufTy).Contents (Elt F) → (⟨S256x512, .f32⟩ : BufTy).Contents (Elt F)) t_main_v23 t_main_v25
  let t_main_cst_1 : (⟨S_, .f32⟩ : BufTy).Contents (Elt F) := (constant S_ .f32 0x00000000#32)
  let t_main_v28 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v27 t_main_cst_1
  let t_main_v29 := (Host.exp : (⟨S256, .f32⟩ : BufTy).Contents (Elt F) → (⟨S256, .f32⟩ : BufTy).Contents (Elt F)) t_main_v28
  let t_main_v30 := (mulf : (⟨S256x512, .f32⟩ : BufTy).Contents (Elt F) → (⟨S256x512, .f32⟩ : BufTy).Contents (Elt F) → (⟨S256x512, .f32⟩ : BufTy).Contents (Elt F)) t_main_v23 t_main_v26
  let t_main_cst_2 : (⟨S_, .f32⟩ : BufTy).Contents (Elt F) := (constant S_ .f32 0x00000000#32)
  let t_main_v31 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v30 t_main_cst_2
  let t_main_v32 := (Host.exp : (⟨S256, .f32⟩ : BufTy).Contents (Elt F) → (⟨S256, .f32⟩ : BufTy).Contents (Elt F)) t_main_v31
  let t_main_v33 := (addf : (⟨S256, .f32⟩ : BufTy).Contents (Elt F) → (⟨S256, .f32⟩ : BufTy).Contents (Elt F) → (⟨S256, .f32⟩ : BufTy).Contents (Elt F)) t_main_v29 t_main_v32
  let t_main_v34 := (mulf : (⟨S256x512, .f32⟩ : BufTy).Contents (Elt F) → (⟨S256x512, .f32⟩ : BufTy).Contents (Elt F) → (⟨S256x512, .f32⟩ : BufTy).Contents (Elt F)) t_main_v24 t_main_v25
  let t_main_cst_3 : (⟨S_, .f32⟩ : BufTy).Contents (Elt F) := (constant S_ .f32 0x00000000#32)
  let t_main_v35 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v34 t_main_cst_3
  let t_main_v36 := (Host.exp : (⟨S256, .f32⟩ : BufTy).Contents (Elt F) → (⟨S256, .f32⟩ : BufTy).Contents (Elt F)) t_main_v35
  let t_main_v37 := (addf : (⟨S256, .f32⟩ : BufTy).Contents (Elt F) → (⟨S256, .f32⟩ : BufTy).Contents (Elt F) → (⟨S256, .f32⟩ : BufTy).Contents (Elt F)) t_main_v33 t_main_v36
  let t_main_v38 := (mulf : (⟨S256x512, .f32⟩ : BufTy).Contents (Elt F) → (⟨S256x512, .f32⟩ : BufTy).Contents (Elt F) → (⟨S256x512, .f32⟩ : BufTy).Contents (Elt F)) t_main_v24 t_main_v26
  let t_main_cst_4 : (⟨S_, .f32⟩ : BufTy).Contents (Elt F) := (constant S_ .f32 0x00000000#32)
  let t_main_v39 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v38 t_main_cst_4
  let t_main_v40 := (Host.exp : (⟨S256, .f32⟩ : BufTy).Contents (Elt F) → (⟨S256, .f32⟩ : BufTy).Contents (Elt F)) t_main_v39
  let t_main_v41 := (addf : (⟨S256, .f32⟩ : BufTy).Contents (Elt F) → (⟨S256, .f32⟩ : BufTy).Contents (Elt F) → (⟨S256, .f32⟩ : BufTy).Contents (Elt F)) t_main_v37 t_main_v40
  let t_main_v42 := (mulf : (⟨S256x512, .f32⟩ : BufTy).Contents (Elt F) → (⟨S256x512, .f32⟩ : BufTy).Contents (Elt F) → (⟨S256x512, .f32⟩ : BufTy).Contents (Elt F)) t_main_v23 t_main_v24
  let t_main_cst_5 : (⟨S_, .f32⟩ : BufTy).Contents (Elt F) := (constant S_ .f32 0x00000000#32)
  let t_main_v43 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v42 t_main_cst_5
  let t_main_v44 := (Host.exp : (⟨S256, .f32⟩ : BufTy).Contents (Elt F) → (⟨S256, .f32⟩ : BufTy).Contents (Elt F)) t_main_v43
  let t_main_v45 := (addf : (⟨S256, .f32⟩ : BufTy).Contents (Elt F) → (⟨S256, .f32⟩ : BufTy).Contents (Elt F) → (⟨S256, .f32⟩ : BufTy).Contents (Elt F)) t_main_v41 t_main_v44
  let t_main_v46 := (mulf : (⟨S256x512, .f32⟩ : BufTy).Contents (Elt F) → (⟨S256x512, .f32⟩ : BufTy).Contents (Elt F) → (⟨S256x512, .f32⟩ : BufTy).Contents (Elt F)) t_main_v25 t_main_v26
  let t_main_cst_6 : (⟨S_, .f32⟩ : BufTy).Contents (Elt F) := (constant S_ .f32 0x00000000#32)
  let t_main_v47 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v46 t_main_cst_6
  let t_main_v48 := (Host.exp : (⟨S256, .f32⟩ : BufTy).Contents (Elt F) → (⟨S256, .f32⟩ : BufTy).Contents (Elt F)) t_main_v47
  let t_main_v49 := (addf : (⟨S256, .f32⟩ : BufTy).Contents (Elt F) → (⟨S256, .f32⟩ : BufTy).Contents (Elt F) → (⟨S256, .f32⟩ : BufTy).Contents (Elt F)) t_main_v45 t_main_v48
  let t_main_v50 := ((transpose S512x512 [1, 0] · transposes_S512x512_S512x512_1_0) : (⟨S512x512, .f32⟩ : BufTy).Contents (Elt F) → (⟨S512x512, .f32⟩ : BufTy).Contents (Elt F)) t_main_v22
  let t_main_v51 := ((fun l r => Host.dotGeneral dot_S256x512_S512x512_S256x512_1_0_0_1_n_n none l r) : (⟨S256x512, .f32⟩ : BufTy).Contents (Elt F) → (⟨S512x512, .f32⟩ : BufTy).Contents (Elt F) → (⟨S256x512, .f32⟩ : BufTy).Contents (Elt F)) t_main_v23 t_main_v50
  let t_main_v52 := (Host.exp : (⟨S256x512, .f32⟩ : BufTy).Contents (Elt F) → (⟨S256x512, .f32⟩ : BufTy).Contents (Elt F)) t_main_v51
  let t_main_v53 := ((transpose S512x512 [1, 0] · transposes_S512x512_S512x512_1_0) : (⟨S512x512, .f32⟩ : BufTy).Contents (Elt F) → (⟨S512x512, .f32⟩ : BufTy).Contents (Elt F)) t_main_v22
  let t_main_v54 := ((fun l r => Host.dotGeneral dot_S256x512_S512x512_S256x512_1_0_0_1_n_n none l r) : (⟨S256x512, .f32⟩ : BufTy).Contents (Elt F) → (⟨S512x512, .f32⟩ : BufTy).Contents (Elt F) → (⟨S256x512, .f32⟩ : BufTy).Contents (Elt F)) t_main_v24 t_main_v53
  let t_main_v55 := (Host.exp : (⟨S256x512, .f32⟩ : BufTy).Contents (Elt F) → (⟨S256x512, .f32⟩ : BufTy).Contents (Elt F)) t_main_v54
  let t_main_v56 := (addf : (⟨S256x512, .f32⟩ : BufTy).Contents (Elt F) → (⟨S256x512, .f32⟩ : BufTy).Contents (Elt F) → (⟨S256x512, .f32⟩ : BufTy).Contents (Elt F)) t_main_v52 t_main_v55
  let t_main_cst_7 : (⟨S_, .f32⟩ : BufTy).Contents (Elt F) := (constant S_ .f32 0x00000000#32)
  let t_main_v57 := ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)) t_main_v56 t_main_cst_7
  let t_main_v58 := (Host.divf : (⟨S256, .f32⟩ : BufTy).Contents (Elt F) → (⟨S256, .f32⟩ : BufTy).Contents (Elt F) → (⟨S256, .f32⟩ : BufTy).Contents (Elt F)) t_main_v49 t_main_v57
  let t_main_v59 := (Host.log : (⟨S256, .f32⟩ : BufTy).Contents (Elt F) → (⟨S256, .f32⟩ : BufTy).Contents (Elt F)) t_main_v58
  let t_main_cst_8 : (⟨S_, .f32⟩ : BufTy).Contents (Elt F) := (constant S_ .f32 0x00000000#32)
  let t_main_v60 := ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)) t_main_v59 t_main_cst_8
  let t_main_cst_9 : (⟨S_, .f32⟩ : BufTy).Contents (Elt F) := (constant S_ .f32 0x43800000#32)
  let t_main_v61 := (Host.divf : (⟨S_, .f32⟩ : BufTy).Contents (Elt F) → (⟨S_, .f32⟩ : BufTy).Contents (Elt F) → (⟨S_, .f32⟩ : BufTy).Contents (Elt F)) t_main_v60 t_main_cst_9
  let t_main_v62 := (Host.negf : (⟨S_, .f32⟩ : BufTy).Contents (Elt F) → (⟨S_, .f32⟩ : BufTy).Contents (Elt F)) t_main_v61
  t_main_v62

end Cert.KernelIdeal.Tail

end
-- ==== Proof.Heads.lean ====
/-
  The two flattened operands of the matrix products, as functions of the argument arrays.
  Audio: the two batches of 256 clips are stacked along the batch axis (512 x 1 x 80 x 16) and each clip is flattened
  to a row of 1280 numbers. Visual: the two batches of 256 clips are stacked (512 x 3 x 5 x 96 x 96), the lower half of
  every frame is kept (rows 48 … 95), the colour and time axes are swapped and merged (15 channels), and each clip is
  flattened to a row of 15 · 48 · 96 = 69120 numbers.
-/
import proofs.«157482_j24283745091878_1_alg».proof.KernelIdeal

noncomputable section

namespace Cert.KernelIdeal.Heads

open Cert.KernelIdeal Idealize.ShloMosaic Idealize.SL.Sem
open Cert.KernelIdeal.Facts₀ Cert.KernelIdeal.Facts

variable {F : FTy → Type} [FloatOps F] [Cert.KernelIdeal.Facts]

/-- The audio operand: 512 rows of 1280. -/
def headA (a1 a2 : (⟨S256x1x80x16, .f32⟩ : BufTy).Contents (Elt F)) : (⟨S512x1280, .f32⟩ : BufTy).Contents (Elt F) :=
  shapeCast S512x1280 (concatenate S512x1x80x16 0 [⟨S256x1x80x16, a1⟩, ⟨S256x1x80x16, a2⟩]
    concatenates_S256x1x80x16_S256x1x80x16_S512x1x80x16_d0) shapeCasts_S512x1x80x16_S512x1280

/-- The visual operand: 512 rows of 69120. -/
def headV (v1 v2 : (⟨S256x3x5x96x96, .f32⟩ : BufTy).Contents (Elt F)) : (⟨S512x69120, .f32⟩ : BufTy).Contents (Elt F) :=
  shapeCast S512x69120
    (shapeCast S512x15x48x96
      (transpose S512x5x3x48x96 [0, 2, 1, 3, 4]
        (extractStridedSlice S512x3x5x48x96 ![0, 0, 0, 48, 0]
          (concatenate S512x3x5x96x96 0 [⟨S256x3x5x96x96, v1⟩, ⟨S256x3x5x96x96, v2⟩]
            concatenates_S256x3x5x96x96_S256x3x5x96x96_S512x3x5x96x96_d0)
          slices_S512x3x5x96x96_S512x3x5x48x96_0_0_0_48_0)
        transposes_S512x3x5x48x96_S512x5x3x48x96_0_2_1_3_4)
      shapeCasts_S512x5x3x48x96_S512x15x48x96)
    shapeCasts_S512x15x48x96_S512x69120

end Cert.KernelIdeal.Heads

end
-- ==== Proof.KHost.lean ====
/-
  The host side of the kernel program read as values: what the operations before the two products put in the
  products' operands, and the final result as the shared tail function of the two products' results.
  Every statement is a computation: the buffers' contents after a straight line of operations are the operations'
  functions composed in program order, each operation's result read at its own result buffer and every other buffer
  left as it was; what is left is the same composition written as one function.
-/
import proofs.«157482_j24283745091878_1_alg».proof.Proof.Gen.KernelIdeal.Regions
import proofs.«157482_j24283745091878_1_alg».proof.Proof.TailFn
import proofs.«157482_j24283745091878_1_alg».proof.Proof.Heads
import Idealize.ShloMosaic.Lib.StableHlo.Run

noncomputable section

namespace Cert.KernelIdeal.Host

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (outs : Outs (F := F))

/-- The 69 operations after the two products, run from ANY contents `W` of the buffers, leave in the result buffer the
    tail function of what `W` holds in the two products' result arrays: the four stretches (the first array's row norms,
    its normalisation, the second array's row norms, then its normalisation and the loss) read nothing else of `W`,
    since every other operand is written by an earlier operation of the same line. -/
theorem tail_of (W : Valuation τ sig (Elt F)) :
    StableHlo.after hostOps2_3 (StableHlo.after hostOps2_2 (StableHlo.after hostOps2_1 (StableHlo.after hostOps2 W)))
        (Proc.devRef .tc main_v62)
      = Tail.tailFn (F := F) (W (Proc.devRef .tc main_v11)) (W (Proc.devRef .tc main_v12)) := by
  simp only [hostOps2_3, hostOps2_2, hostOps2_1, hostOps2]
  after_results_simp
  rfl

/-- The final result is the tail function of what the two regions left in their result arrays. -/
theorem tail_eq (c : Dev nD) :
    V7 m outs c main_v62 = Tail.tailFn (F := F) (V3 m outs c main_v11) (V3 m outs c main_v12) :=
  tail_of (V3 m outs c)

/-- The audio product's left operand. -/
theorem head_v6 (c : Dev nD) :
    V1 m c main_v6 = truncf .bf16 (Heads.headA (F := F) (m ((c.tc : Thread nD τ).loc main_arg0)) (m ((c.tc : Thread nD τ).loc main_arg2))) bitsLt_bf16_f32 := by
  show StableHlo.after hostOps0 (fun b => m (c, b)) (Proc.devRef .tc main_v6) = _
  after_results
  rfl

/-- The visual product's left operand. -/
theorem head_v8 (c : Dev nD) :
    V1 m c main_v8 = truncf .bf16 (Heads.headV (F := F) (m ((c.tc : Thread nD τ).loc main_arg1)) (m ((c.tc : Thread nD τ).loc main_arg3))) bitsLt_bf16_f32 := by
  show StableHlo.after hostOps0 (fun b => m (c, b)) (Proc.devRef .tc main_v8) = _
  after_results
  rfl

/-- The audio product's right operand. -/
theorem head_v9 (c : Dev nD) :
    V1 m c main_v9 = truncf .bf16 (m ((c.tc : Thread nD τ).loc main_arg4)) bitsLt_bf16_f32 := by
  show StableHlo.after hostOps0 (fun b => m (c, b)) (Proc.devRef .tc main_v9) = _
  after_results

/-- The visual product's right operand. -/
theorem head_v10 (c : Dev nD) :
    V1 m c main_v10 = truncf .bf16 (m ((c.tc : Thread nD τ).loc main_arg5)) bitsLt_bf16_f32 := by
  show StableHlo.after hostOps0 (fun b => m (c, b)) (Proc.devRef .tc main_v10) = _
  after_results

end Cert.KernelIdeal.Host

end
-- ==== Proof.RefTail.lean ====
/-
  The reference program read against the same functions: its flattened operands are the kernel program's, and what it
  computes after its two matrix products is the shared tail function of them.
  Each stage of the reference is, by definition, one operation applied to earlier stages. The two flattened operands are
  the same compositions of stacking, slicing, axis swap and flattening as the kernel program's, operation for operation.
  After the two matrix products the reference normalises the audio rows, then the visual rows, and then forms the loss;
  the tail function does the same operations on the same values in an order that differs only between independent
  steps, so once every stage is replaced by its definition the two sides are the same expression in the two products.
-/
import proofs.«157482_j24283745091878_1_alg».proof.Proof.Gen.ReferenceIdeal.Read
import proofs.«157482_j24283745091878_1_alg».proof.Proof.TailFn
import proofs.«157482_j24283745091878_1_alg».proof.Proof.Heads

noncomputable section

namespace Cert.RefBridge

open Idealize.ShloMosaic Idealize.SL.Sem

variable [Cert.KernelIdeal.Facts] [Cert.ReferenceIdeal.Facts]

/-- The reference's audio operand is the kernel program's: both are the flattening to 512 x 1280 of the two audio
batches stacked along the batch axis. -/
theorem ref_headA (x0 x2 : (⟨Cert.ReferenceIdeal.S256x1x80x16, .f32⟩ : BufTy).Contents (Elt Ideal)) :
    Cert.ReferenceIdeal.Read.val_main_v5 (F := Ideal) x0 x2 = Cert.KernelIdeal.Heads.headA (F := Ideal) x0 x2 := by
  unfold Cert.ReferenceIdeal.Read.val_main_v5 Cert.ReferenceIdeal.Read.val_main_v0 Cert.KernelIdeal.Heads.headA
  rfl

/-- The reference's visual operand is the kernel program's: both stack the two visual batches, keep rows 48 … 95 of
every frame, swap and merge the colour and time axes, and flatten each clip to 69120 numbers. -/
theorem ref_headV (x1 x3 : (⟨Cert.ReferenceIdeal.S256x3x5x96x96, .f32⟩ : BufTy).Contents (Elt Ideal)) :
    Cert.ReferenceIdeal.Read.val_main_v12 (F := Ideal) x1 x3 = Cert.KernelIdeal.Heads.headV (F := Ideal) x1 x3 := by
  unfold Cert.ReferenceIdeal.Read.val_main_v12 Cert.ReferenceIdeal.Read.val_main_v4 Cert.ReferenceIdeal.Read.val_main_v3
    Cert.ReferenceIdeal.Read.val_main_v2 Cert.ReferenceIdeal.Read.val_main_v1 Cert.KernelIdeal.Heads.headV
  rfl

/-- The reference's result is the tail function of its two matrix products. -/
theorem ref_tail (x0 : (⟨Cert.ReferenceIdeal.S256x1x80x16, .f32⟩ : BufTy).Contents (Elt Ideal))
    (x1 : (⟨Cert.ReferenceIdeal.S256x3x5x96x96, .f32⟩ : BufTy).Contents (Elt Ideal))
    (x2 : (⟨Cert.ReferenceIdeal.S256x1x80x16, .f32⟩ : BufTy).Contents (Elt Ideal))
    (x3 : (⟨Cert.ReferenceIdeal.S256x3x5x96x96, .f32⟩ : BufTy).Contents (Elt Ideal))
    (x4 : (⟨Cert.ReferenceIdeal.S1280x512, .f32⟩ : BufTy).Contents (Elt Ideal))
    (x5 : (⟨Cert.ReferenceIdeal.S69120x512, .f32⟩ : BufTy).Contents (Elt Ideal)) :
    Cert.ReferenceIdeal.Read.val_main_v58 (F := Ideal) x0 x1 x2 x3 x4 x5
      = Cert.KernelIdeal.Tail.tailFn (F := Ideal) (Cert.ReferenceIdeal.Read.val_main_v6 (F := Ideal) x0 x2 x4)
          (Cert.ReferenceIdeal.Read.val_main_v13 (F := Ideal) x1 x3 x5) := by
  -- every stage after the two products, from the result downwards, is replaced by its defining operation;
  -- the two products themselves stay as they are
  simp only [
    Cert.ReferenceIdeal.Read.val_main_v58, Cert.ReferenceIdeal.Read.val_main_v57,
    Cert.ReferenceIdeal.Read.val_main_cst_9, Cert.ReferenceIdeal.Read.val_main_v56,
    Cert.ReferenceIdeal.Read.val_main_cst_8, Cert.ReferenceIdeal.Read.val_main_v55,
    Cert.ReferenceIdeal.Read.val_main_v54, Cert.ReferenceIdeal.Read.val_main_v53,
    Cert.ReferenceIdeal.Read.val_main_cst_7, Cert.ReferenceIdeal.Read.val_main_v52,
    Cert.ReferenceIdeal.Read.val_main_v51, Cert.ReferenceIdeal.Read.val_main_v50,
    Cert.ReferenceIdeal.Read.val_main_v49, Cert.ReferenceIdeal.Read.val_main_v48,
    Cert.ReferenceIdeal.Read.val_main_v47, Cert.ReferenceIdeal.Read.val_main_v46,
    Cert.ReferenceIdeal.Read.val_main_v45, Cert.ReferenceIdeal.Read.val_main_v44,
    Cert.ReferenceIdeal.Read.val_main_v43, Cert.ReferenceIdeal.Read.val_main_cst_6,
    Cert.ReferenceIdeal.Read.val_main_v42, Cert.ReferenceIdeal.Read.val_main_v41,
    Cert.ReferenceIdeal.Read.val_main_v40, Cert.ReferenceIdeal.Read.val_main_v39,
    Cert.ReferenceIdeal.Read.val_main_cst_5, Cert.ReferenceIdeal.Read.val_main_v38,
    Cert.ReferenceIdeal.Read.val_main_v37, Cert.ReferenceIdeal.Read.val_main_v36,
    Cert.ReferenceIdeal.Read.val_main_v35, Cert.ReferenceIdeal.Read.val_main_cst_4,
    Cert.ReferenceIdeal.Read.val_main_v34, Cert.ReferenceIdeal.Read.val_main_v33,
    Cert.ReferenceIdeal.Read.val_main_v32, Cert.ReferenceIdeal.Read.val_main_v31,
    Cert.ReferenceIdeal.Read.val_main_cst_3, Cert.ReferenceIdeal.Read.val_main_v30,
    Cert.ReferenceIdeal.Read.val_main_v29, Cert.ReferenceIdeal.Read.val_main_v28,
    Cert.ReferenceIdeal.Read.val_main_v27, Cert.ReferenceIdeal.Read.val_main_cst_2,
    Cert.ReferenceIdeal.Read.val_main_v26, Cert.ReferenceIdeal.Read.val_main_v25,
    Cert.ReferenceIdeal.Read.val_main_v24, Cert.ReferenceIdeal.Read.val_main_cst_1,
    Cert.ReferenceIdeal.Read.val_main_v23, Cert.ReferenceIdeal.Read.val_main_v22,
    Cert.ReferenceIdeal.Read.val_main_v21, Cert.ReferenceIdeal.Read.val_main_v20,
    Cert.ReferenceIdeal.Read.val_main_v19, Cert.ReferenceIdeal.Read.val_main_v18,
    Cert.ReferenceIdeal.Read.val_main_v17, Cert.ReferenceIdeal.Read.val_main_v16,
    Cert.ReferenceIdeal.Read.val_main_v15, Cert.ReferenceIdeal.Read.val_main_cst_0,
    Cert.ReferenceIdeal.Read.val_main_v14, Cert.ReferenceIdeal.Read.val_main_call1_v2,
    Cert.ReferenceIdeal.Read.val_main_call1_v1, Cert.ReferenceIdeal.Read.val_main_call1_cst,
    Cert.ReferenceIdeal.Read.val_main_call1_v0, Cert.ReferenceIdeal.Read.val_main_v11,
    Cert.ReferenceIdeal.Read.val_main_v10, Cert.ReferenceIdeal.Read.val_main_v9,
    Cert.ReferenceIdeal.Read.val_main_v8, Cert.ReferenceIdeal.Read.val_main_cst,
    Cert.ReferenceIdeal.Read.val_main_v7, Cert.ReferenceIdeal.Read.val_main_call0_v2,
    Cert.ReferenceIdeal.Read.val_main_call0_v1, Cert.ReferenceIdeal.Read.val_main_call0_cst,
    Cert.ReferenceIdeal.Read.val_main_call0_v0]
  -- from here on the two products are arbitrary 512 x 512 arrays a and v
  generalize Cert.ReferenceIdeal.Read.val_main_v6 (F := Ideal) x0 x2 x4 = a
  generalize Cert.ReferenceIdeal.Read.val_main_v13 (F := Ideal) x1 x3 x5 = v
  -- both sides are now the same nest of operations on a and v
  rfl

end Cert.RefBridge

end
-- ==== Proof.KI.Value.lean ====
/-
  The result's value. The audio region leaves zero plus the whole 1280-term contraction in its result array; the visual
  region's accumulator after the ninth point holds the nine blocks' products added up, which is the whole 69120-term
  contraction; the kernels' narrowing of their operands is the identity at the exact reading. These are, entry by entry,
  the reference's two matrix products of the same flattened operands, and everything after the products is one shared
  function of them — so the two programs' results are equal.
-/
import proofs.«157482_j24283745091878_1_alg».proof.Proof.KI.Main
import proofs.«157482_j24283745091878_1_alg».proof.Proof.KI.Pieces
import proofs.«157482_j24283745091878_1_alg».proof.Proof.KI.Blocks
import proofs.«157482_j24283745091878_1_alg».proof.Proof.MatBridge
import proofs.«157482_j24283745091878_1_alg».proof.Proof.KHost
import proofs.«157482_j24283745091878_1_alg».proof.Proof.RefTail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

section
variable (V : (c : Dev nD) → (b : Ref sig .tc) → Buf (Elt Ideal) ((c : Thread nD τ).loc b))

/-- The accumulation does not depend on which proof bounds the position. -/
theorem outsAt1_congr (c : Dev nD) {k n : ℕ} (e : k = n) (hk : k < cfg1.N) (hn : n < cfg1.N) :
    outsAt1 V c k hk = outsAt1 V c n hn := by
  subst e; rfl

/-- One more point: the next block's product is added. -/
theorem accAt_succ (X : Vec Ideal S512x69120 .bf16) (W : Vec Ideal S69120x512 .bf16) (n : ℕ) (h : n + 1 < 9) :
    Mat.accAt X W (n + 1) = k1_pay2 (F := Ideal) (Mat.accAt X W n) (Mat.xblk X ⟨n + 1, h⟩) (Mat.wblk W ⟨n + 1, h⟩) := by
  show (if h' : n + 1 < 9 then k1_pay2 (F := Ideal) (Mat.accAt X W n) (Mat.xblk X ⟨n + 1, h'⟩) (Mat.wblk W ⟨n + 1, h'⟩) else Mat.accAt X W n) = _
  exact dif_pos h

/-- After point `n` the accumulator holds the first `n + 1` blocks' products added up. -/
theorem acc_eq (c : Dev nD) : ∀ (n : ℕ) (hn : n < cfg1.N),
    (outsAt1 V c n hn).2 = Mat.accAt (V c main_v8) (V c main_v10) n
  | 0, hn => by
    have h := outsAt1_A V c ⟨0, hn⟩ (Nat.zero_mod _) (by (try dsimp only); omega)
    rw [show outsAt1 V c 0 hn = outsAt1 V c (⟨0, hn⟩ : Fin cfg1.N).val (⟨0, hn⟩ : Fin cfg1.N).isLt from rfl, h]
    dsimp only
    rw [sout1_A_0_eq, iblk1_0_eq, iblk1_1_eq]
    rfl
  | n + 1, hn => by
    have h9 : n + 1 < 9 := N1_lt hn
    have ih := acc_eq c n (Nat.lt_of_succ_lt hn)
    have hprev : (outsAt1 V c ((⟨n + 1, hn⟩ : Fin cfg1.N).val - 1) (Nat.lt_of_le_of_lt (Nat.sub_le _ _) (⟨n + 1, hn⟩ : Fin cfg1.N).isLt)).2
        = Mat.accAt (V c main_v8) (V c main_v10) n := by
      rw [outsAt1_congr V c (show (⟨n + 1, hn⟩ : Fin cfg1.N).val - 1 = n from by show n + 1 - 1 = n; omega) _ (Nat.lt_of_succ_lt hn)]
      exact ih
    have h0 : ¬ (⟨n + 1, hn⟩ : Fin cfg1.N).val % 9 = 0 := by (try dsimp only); omega
    rw [show outsAt1 V c (n + 1) hn = outsAt1 V c (⟨n + 1, hn⟩ : Fin cfg1.N).val (⟨n + 1, hn⟩ : Fin cfg1.N).isLt from rfl]
    by_cases h1 : (⟨n + 1, hn⟩ : Fin cfg1.N).val % 9 = 8
    · rw [outsAt1_C V c ⟨n + 1, hn⟩ h0 h1]
      dsimp only
      rw [sout1_C_0_eq, hprev, iblk1_0_eq, iblk1_1_eq]
      rw [accAt_succ _ _ n h9]
    · rw [outsAt1_B V c ⟨n + 1, hn⟩ h0 h1]
      dsimp only
      rw [sout1_B_0_eq, hprev, iblk1_0_eq, iblk1_1_eq]
      rw [accAt_succ _ _ n h9]

/-- The visual region's result array: the nine blocks' products added up. -/
theorem region1_out (c : Dev nD) :
    ((dat1 V c).arrAt 2 cfg1.N : Vec Ideal S512x512 .f32) = Mat.accAt (V c main_v8) (V c main_v10) 8 := by
  have h8 : (8 : ℕ) < cfg1.N := by rw [show cfg1.N = 9 from N_1]; decide
  rw [arrAt1_out]
  have h := outsAt1_C V c ⟨8, h8⟩ (by (try dsimp only); omega) (by (try dsimp only))
  rw [show outsAt1 V c 8 _ = outsAt1 V c (⟨8, h8⟩ : Fin cfg1.N).val (⟨8, h8⟩ : Fin cfg1.N).isLt from rfl, h]
  dsimp only
  rw [out1_C_2_eq, outsAt1_congr V c (show (⟨8, h8⟩ : Fin cfg1.N).val - 1 = 7 from rfl) _ (by rw [show cfg1.N = 9 from N_1]; decide),
    acc_eq V c 7, iblk1_0_eq, iblk1_1_eq]
  exact (accAt_succ (V c main_v8) (V c main_v10) 7 (by decide)).symm

/-- The audio region's result array: zero plus the product of its two whole operands. -/
theorem region0_out (c : Dev nD) :
    ((dat0 V c).arrAt 2 cfg0.N : Vec Ideal S512x512 .f32) = k0_pay2 (F := Ideal) (k0_pay1 (F := Ideal)) (V c main_v6) (V c main_v9) := by
  rw [arrAt0_out, after0_2, out0_2_eq, iblk0_0_eq, iblk0_1_eq]

end

/-! ## Against the reference -/

section
variable [hR : Cert.ReferenceIdeal.Facts]
variable (m : (ℓ : Loc nD τ sig) → Buf (Elt Ideal) ℓ)

/-- What the audio region leaves is the reference's audio product of the same arguments. -/
theorem X0_eq (c : Dev nD) :
    (X0 m c : Vec Ideal S512x512 .f32) = Cert.ReferenceIdeal.Read.val_main_v6 (F := Ideal) (m ((c.tc : Thread nD τ).loc main_arg0)) (m ((c.tc : Thread nD τ).loc main_arg2)) (m ((c.tc : Thread nD τ).loc main_arg4)) := by
  have hL : (X0 m c : Vec Ideal S512x512 .f32) = _ := region0_out (EV1 m) c
  dsimp only [EV1] at hL
  rw [Host.head_v6 m c, Host.head_v9 m c] at hL
  refine funext fun i => ?_
  refine (congrFun hL i).trans ?_
  refine (Mat.single _ _ i).trans ?_
  rw [Cert.ReferenceIdeal.Read.val_main_v6_apply, RefBridge.ref_headA]
  refine Finset.sum_congr rfl fun k _ => ?_
  have el : (ix2 (⟨(i 0).val, (i 0).isLt⟩ : Fin 512) k : S512x1280.Idx) = Cert.ReferenceIdeal.Read.lidx_main_v6 i k :=
    funext fun a => Fin.ext (by match a with | ⟨0, _⟩ => rfl | ⟨1, _⟩ => rfl)
  have er : (ix2 k (⟨(i 1).val, (i 1).isLt⟩ : Fin 512) : S1280x512.Idx) = Cert.ReferenceIdeal.Read.ridx_main_v6 i k :=
    funext fun a => Fin.ext (by match a with | ⟨0, _⟩ => rfl | ⟨1, _⟩ => rfl)
  rw [el, er]
  rfl

/-- What the visual region leaves is the reference's visual product of the same arguments. -/
theorem X1_eq (c : Dev nD) :
    (X1 m c : Vec Ideal S512x512 .f32) = Cert.ReferenceIdeal.Read.val_main_v13 (F := Ideal) (m ((c.tc : Thread nD τ).loc main_arg1)) (m ((c.tc : Thread nD τ).loc main_arg3)) (m ((c.tc : Thread nD τ).loc main_arg5)) := by
  have hL : (X1 m c : Vec Ideal S512x512 .f32) = _ := region1_out (EV2 m) c
  rw [show EV2 m c main_v8 = V1 m c main_v8 from W2_of m c main_v8 (by decide),
    show EV2 m c main_v10 = V1 m c main_v10 from W2_of m c main_v10 (by decide)] at hL
  rw [Host.head_v8 m c, Host.head_v10 m c] at hL
  refine funext fun i => ?_
  refine (congrFun hL i).trans ?_
  refine (Mat.accAt_last _ _ i).trans ?_
  rw [Cert.ReferenceIdeal.Read.val_main_v13_apply, RefBridge.ref_headV]
  refine Finset.sum_congr rfl fun k _ => ?_
  have el : (ix2 (⟨(i 0).val, (i 0).isLt⟩ : Fin 512) k : S512x69120.Idx) = Cert.ReferenceIdeal.Read.lidx_main_v13 i k :=
    funext fun a => Fin.ext (by match a with | ⟨0, _⟩ => rfl | ⟨1, _⟩ => rfl)
  have er : (ix2 k (⟨(i 1).val, (i 1).isLt⟩ : Fin 512) : S69120x512.Idx) = Cert.ReferenceIdeal.Read.ridx_main_v13 i k :=
    funext fun a => Fin.ext (by match a with | ⟨0, _⟩ => rfl | ⟨1, _⟩ => rfl)
  rw [el, er]
  rfl

/-- The kernel program's result is the reference's result of the same arguments. -/
theorem result_eq (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    V7 m (outsOf m) c main_v62 = Cert.ReferenceIdeal.Value.res_main_v58 (F := Ideal) m' c := by
  rw [Host.tail_eq, V3_eq, W3_self, W3_of m c main_v11 (by decide), W2_self, X0_eq, X1_eq,
    Cert.ReferenceIdeal.Read.val_main_v58_eq, RefBridge.ref_tail, h0, h1, h2, h3, h4, h5]

end

end Cert.KernelIdeal.Fr

end
-- ==== Proof.lean ====
/-
  Two accumulating matrix-product kernels (bf16 operands, an f32 accumulator kept in scratch across the grid: zeroed at
  the first point, a block's product added at every point, copied out at the last) inside a contrastive loss over
  L2-normalised embeddings, against the plain-jnp reference that multiplies the whole f32 matrices at once.
  At the exact reading the narrowing to bf16 is the identity, zero plus a sum is the sum, and nine consecutive blocks of
  7680 contraction terms added in order are the whole 69120-term contraction (sums of extended reals re-associate freely);
  the audio product has a single block. Everything before the products (stacking, cropping, transposing, flattening)
  and everything after them (row norms, exponentials of dot products, the log-ratio's mean) is the same operations in
  both programs, carried as shared functions and never opened. The frames of the two kernel programs come from one run
  theorem that tracks every unscoped buffer through @main's seven items; the reference's frame is its run.
-/
import proofs.«157482_j24283745091878_1_alg».proof.Defs
import proofs.«157482_j24283745091878_1_alg».proof.Proof.Gen.Kernel
import proofs.«157482_j24283745091878_1_alg».proof.Proof.Gen.KernelIdeal
import proofs.«157482_j24283745091878_1_alg».proof.Proof.Gen.ReferenceIdeal
import proofs.«157482_j24283745091878_1_alg».proof.Proof.Gen.Pre_finite_inputs
import proofs.«157482_j24283745091878_1_alg».proof.Proof.Gen.ReferenceIdeal.Run
import proofs.«157482_j24283745091878_1_alg».proof.Proof.K.Main
import proofs.«157482_j24283745091878_1_alg».proof.Proof.KI.Main
import proofs.«157482_j24283745091878_1_alg».proof.Proof.KI.Value
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run (Cert.Kernel.defs) _ _).mono (fun r h c =>
    ⟨((h c (Proc.devRef .tc Cert.Kernel.main_arg0) (Finset.mem_filter.mpr ⟨StableHlo.devRef_mem_tcRefs Cert.Kernel.main_arg0, by decide⟩))).trans (Cert.Kernel.Gen.V7_main_arg0 m (Cert.Kernel.Fr.outsOf m) c),
     ((h c (Proc.devRef .tc Cert.Kernel.main_arg1) (Finset.mem_filter.mpr ⟨StableHlo.devRef_mem_tcRefs Cert.Kernel.main_arg1, by decide⟩))).trans (Cert.Kernel.Gen.V7_main_arg1 m (Cert.Kernel.Fr.outsOf m) c),
     ((h c (Proc.devRef .tc Cert.Kernel.main_arg2) (Finset.mem_filter.mpr ⟨StableHlo.devRef_mem_tcRefs Cert.Kernel.main_arg2, by decide⟩))).trans (Cert.Kernel.Gen.V7_main_arg2 m (Cert.Kernel.Fr.outsOf m) c),
     ((h c (Proc.devRef .tc Cert.Kernel.main_arg3) (Finset.mem_filter.mpr ⟨StableHlo.devRef_mem_tcRefs Cert.Kernel.main_arg3, by decide⟩))).trans (Cert.Kernel.Gen.V7_main_arg3 m (Cert.Kernel.Fr.outsOf m) c),
     ((h c (Proc.devRef .tc Cert.Kernel.main_arg4) (Finset.mem_filter.mpr ⟨StableHlo.devRef_mem_tcRefs Cert.Kernel.main_arg4, by decide⟩))).trans (Cert.Kernel.Gen.V7_main_arg4 m (Cert.Kernel.Fr.outsOf m) c),
     ((h c (Proc.devRef .tc Cert.Kernel.main_arg5) (Finset.mem_filter.mpr ⟨StableHlo.devRef_mem_tcRefs Cert.Kernel.main_arg5, by decide⟩))).trans (Cert.Kernel.Gen.V7_main_arg5 m (Cert.Kernel.Fr.outsOf m) c)⟩)
    (Cert.Kernel.Fr.run_all m ρ)

/-- So does its exact reading. -/
theorem frame_ki : Cert.frame_KernelIdeal := fun m ρ _ =>
  (θ_run (Cert.KernelIdeal.defs) _ _).mono (fun r h c =>
    ⟨((h c (Proc.devRef .tc Cert.KernelIdeal.main_arg0) (Finset.mem_filter.mpr ⟨StableHlo.devRef_mem_tcRefs Cert.KernelIdeal.main_arg0, by decide⟩))).trans (Cert.KernelIdeal.Gen.V7_main_arg0 m (Cert.KernelIdeal.Fr.outsOf m) c),
     ((h c (Proc.devRef .tc Cert.KernelIdeal.main_arg1) (Finset.mem_filter.mpr ⟨StableHlo.devRef_mem_tcRefs Cert.KernelIdeal.main_arg1, by decide⟩))).trans (Cert.KernelIdeal.Gen.V7_main_arg1 m (Cert.KernelIdeal.Fr.outsOf m) c),
     ((h c (Proc.devRef .tc Cert.KernelIdeal.main_arg2) (Finset.mem_filter.mpr ⟨StableHlo.devRef_mem_tcRefs Cert.KernelIdeal.main_arg2, by decide⟩))).trans (Cert.KernelIdeal.Gen.V7_main_arg2 m (Cert.KernelIdeal.Fr.outsOf m) c),
     ((h c (Proc.devRef .tc Cert.KernelIdeal.main_arg3) (Finset.mem_filter.mpr ⟨StableHlo.devRef_mem_tcRefs Cert.KernelIdeal.main_arg3, by decide⟩))).trans (Cert.KernelIdeal.Gen.V7_main_arg3 m (Cert.KernelIdeal.Fr.outsOf m) c),
     ((h c (Proc.devRef .tc Cert.KernelIdeal.main_arg4) (Finset.mem_filter.mpr ⟨StableHlo.devRef_mem_tcRefs Cert.KernelIdeal.main_arg4, by decide⟩))).trans (Cert.KernelIdeal.Gen.V7_main_arg4 m (Cert.KernelIdeal.Fr.outsOf m) c),
     ((h c (Proc.devRef .tc Cert.KernelIdeal.main_arg5) (Finset.mem_filter.mpr ⟨StableHlo.devRef_mem_tcRefs Cert.KernelIdeal.main_arg5, by decide⟩))).trans (Cert.KernelIdeal.Gen.V7_main_arg5 m (Cert.KernelIdeal.Fr.outsOf m) c)⟩)
    (Cert.KernelIdeal.Fr.run_all m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both exact programs end with the same loss. -/
theorem algebraic : Cert.algebraic_KernelIdeal_ReferenceIdeal := by
  intro m ρ m' ρ' _ hagree
  refine ⟨fun c => Cert.KernelIdeal.Gen.V7 m (Cert.KernelIdeal.Fr.outsOf m) c Cert.KernelIdeal.main_v62, ?_, ?_⟩
  · exact (θ_run Cert.KernelIdeal.defs _ _).mono (fun r h c =>
      ⟨(h c (Proc.devRef .tc Cert.KernelIdeal.main_v62) (Finset.mem_filter.mpr ⟨StableHlo.devRef_mem_tcRefs Cert.KernelIdeal.main_v62, by decide⟩)),
       ((h c (Proc.devRef .tc Cert.KernelIdeal.main_arg0) (Finset.mem_filter.mpr ⟨StableHlo.devRef_mem_tcRefs Cert.KernelIdeal.main_arg0, by decide⟩))).trans (Cert.KernelIdeal.Gen.V7_main_arg0 m (Cert.KernelIdeal.Fr.outsOf m) c),
       ((h c (Proc.devRef .tc Cert.KernelIdeal.main_arg1) (Finset.mem_filter.mpr ⟨StableHlo.devRef_mem_tcRefs Cert.KernelIdeal.main_arg1, by decide⟩))).trans (Cert.KernelIdeal.Gen.V7_main_arg1 m (Cert.KernelIdeal.Fr.outsOf m) c),
       ((h c (Proc.devRef .tc Cert.KernelIdeal.main_arg2) (Finset.mem_filter.mpr ⟨StableHlo.devRef_mem_tcRefs Cert.KernelIdeal.main_arg2, by decide⟩))).trans (Cert.KernelIdeal.Gen.V7_main_arg2 m (Cert.KernelIdeal.Fr.outsOf m) c),
       ((h c (Proc.devRef .tc Cert.KernelIdeal.main_arg3) (Finset.mem_filter.mpr ⟨StableHlo.devRef_mem_tcRefs Cert.KernelIdeal.main_arg3, by decide⟩))).trans (Cert.KernelIdeal.Gen.V7_main_arg3 m (Cert.KernelIdeal.Fr.outsOf m) c),
       ((h c (Proc.devRef .tc Cert.KernelIdeal.main_arg4) (Finset.mem_filter.mpr ⟨StableHlo.devRef_mem_tcRefs Cert.KernelIdeal.main_arg4, by decide⟩))).trans (Cert.KernelIdeal.Gen.V7_main_arg4 m (Cert.KernelIdeal.Fr.outsOf m) c),
       ((h c (Proc.devRef .tc Cert.KernelIdeal.main_arg5) (Finset.mem_filter.mpr ⟨StableHlo.devRef_mem_tcRefs Cert.KernelIdeal.main_arg5, by decide⟩))).trans (Cert.KernelIdeal.Gen.V7_main_arg5 m (Cert.KernelIdeal.Fr.outsOf m) c)⟩)
      (Cert.KernelIdeal.Fr.run_all (F := Ideal) m ρ)
  · exact (θ_run Cert.ReferenceIdeal.defs _ _).mono (fun r h c =>
      ⟨(h c).1.trans (Cert.KernelIdeal.Fr.result_eq m c m' (hagree c).1 (hagree c).2.1 (hagree c).2.2.1 (hagree c).2.2.2.1
          (hagree c).2.2.2.2.1 (hagree c).2.2.2.2.2).symm, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
